-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S1x128 : Shape := ⟨2, ![1, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S2x640000 : S_.BroadcastsInDim S2x640000 (![] : Fin 0 → Fin S2x640000.rank)
  reducesTo_S2x640000_S_d0_1 : S2x640000.ReducesTo [0, 1] S_

variable [Facts]

def fn_part1 {F : FTy → Type} [FloatOps F] (main_arg1 : IVec S2x640000 32) (main_v13 : IVec S_ 1) (main_v15 : IVec S2x640000 1) (main_c_5 : IVec S_ 1) : IVec S_ 1 :=
  let main_v16 : IVec S_ 1 := (fun x v => Host.reduce IntOp.andi x v reducesTo_S2x640000_S_d0_1 h_S_) main_v15 main_c_5
  let main_v17 : IVec S_ 1 := andi main_v13 main_v16
  let main_c_6 : IVec S_ 32 := constantI S_ 32 50000#32
  let main_v18 : IVec S2x640000 32 := broadcastInDim S2x640000 ![] bcast_S_S2x640000 main_c_6
  let main_v19 : IVec S2x640000 1 := cmpi .slt main_arg1 main_v18
  let main_c_7 : IVec S_ 1 := constantI S_ 1 1#1
  let main_v20 : IVec S_ 1 := (fun x v => Host.reduce IntOp.andi x v reducesTo_S2x640000_S_d0_1 h_S_) main_v19 main_c_7
  let main_v21 : IVec S_ 1 := andi main_v17 main_v20
  main_v21

def fn {F : FTy → Type} [FloatOps F] (main_arg0 : FVec F S50000x128 .f32) (main_arg1 : IVec S2x640000 32) (main_arg2 : FVec F S1x128 .f32) (main_arg3 : FVec F S1x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1x128 .f32 := Host.absf main_arg2
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S1x128 .f32 := Host.absf main_arg3
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_c_4 : IVec S_ 32 := constantI S_ 32 0#32
  let main_v14 : IVec S2x640000 32 := broadcastInDim S2x640000 ![] bcast_S_S2x640000 main_c_4
  let main_v15 : IVec S2x640000 1 := cmpi .sge main_arg1 main_v14
  let main_c_5 : IVec S_ 1 := constantI S_ 1 1#1
  fn_part1 (F := F) main_arg1 main_v13 main_v15 main_c_5
-- ==== Kernel.lean ====
abbrev S50000x128 : Shape := ⟨2, ![50000, 128]⟩
abbrev S2x640000 : Shape := ⟨2, ![2, 640000]⟩
abbrev S1x128 : Shape := ⟨2, ![1, 128]⟩
abbrev S2x128 : Shape := ⟨2, ![2, 128]⟩
abbrev S2x50000 : Shape := ⟨2, ![2, 50000]⟩
abbrev S1x640000 : Shape := ⟨2, ![1, 640000]⟩
abbrev S640000 : Shape := ⟨1, ![640000]⟩
abbrev S1x50000 : Shape := ⟨2, ![1, 50000]⟩
abbrev S50000 : Shape := ⟨1, ![50000]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S8192x128 : Shape := ⟨2, ![8192, 128]⟩
abbrev S2x8192 : Shape := ⟨2, ![2, 8192]⟩

abbrev nBuf : Space → Nat
  | .hbm => 61
  | .vmem => 5
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S1x128, .f32⟩
  | .hbm, ⟨3, _⟩ => ⟨S1x128, .f32⟩
  | .hbm, ⟨4, _⟩ => ⟨S2x128, .f32⟩
  | .hbm, ⟨5, _⟩ => ⟨S2x50000, .f32⟩
  | .hbm, ⟨6, _⟩ => ⟨S1x640000, .i32⟩
  | .hbm, ⟨7, _⟩ => ⟨S640000, .i32⟩
  | .hbm, ⟨8, _⟩ => ⟨S1x640000, .i32⟩
  | .hbm, ⟨9, _⟩ => ⟨S640000, .i32⟩
  | .hbm, ⟨10, _⟩ => ⟨S1x50000, .f32⟩
  | .hbm, ⟨11, _⟩ => ⟨S50000, .f32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S1, .i32⟩
  | .hbm, ⟨21, _⟩ => ⟨S_, .i32⟩
  | .hbm, ⟨22, _⟩ => ⟨S640000x1, .i32⟩
  | .hbm, ⟨23, _⟩ => ⟨S640000x1, .i1⟩
  | .hbm, ⟨24, _⟩ => ⟨S1x1, .i32⟩
  | .hbm, ⟨25, _⟩ => ⟨S640000x1, .i32⟩
  | .hbm, ⟨26, _⟩ => ⟨S640000x1, .i1⟩
  | .hbm, ⟨27, _⟩ => ⟨S640000x1, .i1⟩
  | .hbm, ⟨28, _⟩ => ⟨S_, .i1⟩
  | .hbm, ⟨29, _⟩ => ⟨S640000, .i1⟩
  | .hbm, ⟨30, _⟩ => ⟨S640000, .f32⟩
  | .hbm, ⟨31, _⟩ => ⟨S_, .f32⟩
  | .hbm, ⟨32, _⟩ => ⟨S640000, .f32⟩
  | .hbm, ⟨33, _⟩ => ⟨S640000, .f32⟩
  | .hbm, ⟨34, _⟩ => ⟨S640000x1, .f32⟩
  | .hbm, ⟨35, _⟩ => ⟨S1x50000, .f32⟩
  | .hbm, ⟨36, _⟩ => ⟨S50000, .f32⟩
  | .hbm, ⟨37, _⟩ => ⟨S_, .i32⟩
  | .hbm, ⟨38, _⟩ => ⟨S640000, .i32⟩
  | .hbm, ⟨39, _⟩ => ⟨S640000, .i1⟩
  | .hbm, ⟨40, _⟩ => ⟨S_, .i32⟩
  | .hbm, ⟨41, _⟩ => ⟨S640000, .i32⟩
  | .hbm, ⟨42, _⟩ => ⟨S640000, .i32⟩
  | .hbm, ⟨43, _⟩ => ⟨S640000, .i32⟩
  | .hbm, ⟨44, _⟩ => ⟨S640000x1, .i32⟩
  | .hbm, ⟨45, _⟩ => ⟨S1, .i32⟩
  | .hbm, ⟨46, _⟩ => ⟨S_, .i32⟩
  | .hbm, ⟨47, _⟩ => ⟨S640000x1, .i32⟩
  | .hbm, ⟨48, _⟩ => ⟨S640000x1, .i1⟩
  | .hbm, ⟨49, _⟩ => ⟨S1x1, .i32⟩
  | .hbm, ⟨50, _⟩ => ⟨S640000x1, .i32⟩
  | .hbm, ⟨51, _⟩ => ⟨S640000x1, .i1⟩
  | .hbm, ⟨52, _⟩ => ⟨S640000x1, .i1⟩
  | .hbm, ⟨53, _⟩ => ⟨S_, .i1⟩
  | .hbm, ⟨54, _⟩ => ⟨S640000, .i1⟩
  | .hbm, ⟨55, _⟩ => ⟨S640000, .f32⟩
  | .hbm, ⟨56, _⟩ => ⟨S_, .f32⟩
  | .hbm, ⟨57, _⟩ => ⟨S640000, .f32⟩
  | .hbm, ⟨58, _⟩ => ⟨S640000, .f32⟩
  | .hbm, ⟨59, _⟩ => ⟨S640000x1, .f32⟩
  | .hbm, ⟨60, _⟩ => ⟨S640000x1, .f32⟩
  | .local _ .vmem, ⟨0, _⟩ => ⟨S8192x128, .f32⟩
  | .local _ .vmem, ⟨1, _⟩ => ⟨S8192x128, .f32⟩
  | .local _ .vmem, ⟨2, _⟩ => ⟨S2x128, .f32⟩
  | .local _ .vmem, ⟨3, _⟩ => ⟨S2x8192, .f32⟩
  | .local _ .vmem, ⟨4, _⟩ => ⟨S2x8192, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_call0_c : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_c_0 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_c_1 : Ref sig .tc := ⟨.hbm, 20, rfl⟩
abbrev main_call0_call0_c_2 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_call0_c_3 : Ref sig .tc := ⟨.hbm, 28, rfl⟩
abbrev main_call0_call0_v12 : Ref sig .tc := ⟨.hbm, 29, rfl⟩
abbrev main_call0_call0_v13 : Ref sig .tc := ⟨.hbm, 30, rfl⟩
abbrev main_call0_call0_cst : Ref sig .tc := ⟨.hbm, 31, rfl⟩
abbrev main_call0_call0_v14 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_call1_c : Ref sig .tc := ⟨.hbm, 37, rfl⟩
abbrev main_call0_call1_v0 : Ref sig .tc := ⟨.hbm, 38, rfl⟩
abbrev main_call0_call1_v1 : Ref sig .tc := ⟨.hbm, 39, rfl⟩
abbrev main_call0_call1_c_0 : Ref sig .tc := ⟨.hbm, 40, rfl⟩
abbrev main_call0_call1_v2 : Ref sig .tc := ⟨.hbm, 41, rfl⟩
abbrev main_call0_call1_v3 : Ref sig .tc := ⟨.hbm, 42, rfl⟩
abbrev main_call0_call1_v4 : Ref sig .tc := ⟨.hbm, 43, rfl⟩
abbrev main_call0_call1_v5 : Ref sig .tc := ⟨.hbm, 44, rfl⟩
abbrev main_call0_call1_c_1 : Ref sig .tc := ⟨.hbm, 45, rfl⟩
abbrev main_call0_call1_c_2 : Ref sig .tc := ⟨.hbm, 46, rfl⟩
abbrev main_call0_call1_v6 : Ref sig .tc := ⟨.hbm, 47, rfl⟩
abbrev main_call0_call1_v7 : Ref sig .tc := ⟨.hbm, 48, rfl⟩
abbrev main_call0_call1_v8 : Ref sig .tc := ⟨.hbm, 49, rfl⟩
abbrev main_call0_call1_v9 : Ref sig .tc := ⟨.hbm, 50, rfl⟩
abbrev main_call0_call1_v10 : Ref sig .tc := ⟨.hbm, 51, rfl⟩
abbrev main_call0_call1_v11 : Ref sig .tc := ⟨.hbm, 52, rfl⟩
abbrev main_call0_call1_c_3 : Ref sig .tc := ⟨.hbm, 53, rfl⟩
abbrev main_call0_call1_v12 : Ref sig .tc := ⟨.hbm, 54, rfl⟩
abbrev main_call0_call1_v13 : Ref sig .tc := ⟨.hbm, 55, rfl⟩
abbrev main_call0_call1_cst : Ref sig .tc := ⟨.hbm, 56, rfl⟩
abbrev main_call0_call1_v14 : Ref sig .tc := ⟨.hbm, 57, rfl⟩
abbrev main_call0_v12 : Ref sig .tc := ⟨.hbm, 58, rfl⟩
abbrev main_call0_v13 : Ref sig .tc := ⟨.hbm, 59, rfl⟩
abbrev main_v0 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  concatenates_S1x128_S1x128_S2x128_d0 : Shape.Concatenates [S1x128, S1x128] S2x128 0
  slices_S2x640000_S1x640000_0_0 : S2x640000.Slices ![0, 0] S1x640000
  shapeCasts_S1x640000_S640000 : S1x640000.ShapeCasts S640000
  slices_S2x640000_S1x640000_1_0 : S2x640000.Slices ![1, 0] S1x640000
  slices_S2x50000_S1x50000_0_0 : S2x50000.Slices ![0, 0] S1x50000
  shapeCasts_S1x50000_S50000 : S1x50000.ShapeCasts S50000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  slices_S2x50000_S1x50000_1_0 : S2x50000.Slices ![1, 0] S1x50000
  inb_S8192x128_S8192x128_0_0 : ∀ a, (![0, 0] : Fin 2 → Nat) a + S8192x128.size a ≤ S8192x128.size a
  h_S8192x128 : 0 < S8192x128.numel
  bitsLt_bf16_f32 : FTy.bits .bf16 < FTy.bits .f32
  inb_S2x128_S2x128_0_0 : ∀ a, (![0, 0] : Fin 2 → Nat) a + S2x128.size a ≤ S2x128.size a
  h_S2x128 : 0 < S2x128.numel
  shapeCasts_S2x128_S2x128 : S2x128.ShapeCasts S2x128
  inb_S2x8192_S2x8192_0_0 : ∀ a, (![0, 0] : Fin 2 → Nat) a + S2x8192.size a ≤ S2x8192.size a
  h_S2x8192 : 0 < S2x8192.numel
  gather_S50000_S640000x1_S640000_n_0_n_n_0_1_1_wf : GatherDims.WF S50000 S640000x1 S640000 [] [0] [] [0] [] 1 ![1]
  dot_S2x128_S8192x128_S2x8192_1_1_0_0_n_n_wf : DotDims.WF S2x128 S8192x128 S2x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S8192x128.size a < S50000x128.size a
  hwx0_0 : ∀ i : grid0.Coords, EltTy.bits .f32 = 32 ∨ (Rect.unit (s := S50000x128) (fun a => cc0_transform_0 i a * S8192x128.size a) (fun a => (Pipeline.Clip.of (cc0_transform_0 i a) (S8192x128.size a) (S50000x128.size a)).extent (S8192x128.size a)) fun a => Pipeline.Clip.inb (Pipeline.Clip.ok_of (hstart0_0 i a))).WholeWords (EltTy.packing .f32)
  hwxs0_0 : ∀ i : grid0.Coords, EltTy.bits .f32 = 32 ∨ (Rect.unit (s := S8192x128) (fun _ => 0) (fun a => (Pipeline.Clip.of (cc0_transform_0 i a) (S8192x128.size a) (S50000x128.size a)).extent (S8192x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x128.size a ≤ S2x128.size a
  hwx0_1 : ∀ i : grid0.Coords, EltTy.bits .f32 = 32 ∨ (Rect.block (s := S2x128) S2x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S2x8192.size a < S2x50000.size a
  hwx0_2 : ∀ i : grid0.Coords, EltTy.bits .f32 = 32 ∨ (Rect.unit (s := S2x50000) (fun a => cc0_transform_2 i a * S2x8192.size a) (fun a => (Pipeline.Clip.of (cc0_transform_2 i a) (S2x8192.size a) (S2x50000.size a)).extent (S2x8192.size a)) fun a => Pipeline.Clip.inb (Pipeline.Clip.ok_of (hstart0_2 i a))).WholeWords (EltTy.packing .f32)
  hwxs0_2 : ∀ i : grid0.Coords, EltTy.bits .f32 = 32 ∨ (Rect.unit (s := S2x8192) (fun _ => 0) (fun a => (Pipeline.Clip.of (cc0_transform_2 i a) (S2x8192.size a) (S2x50000.size a)).extent (S2x8192.size a)) fun a => (Nat.zero_add _).trans_le (Pipeline.Clip.extent_le (Pipeline.Clip.ok_of (hstart0_2 i a)))).WholeWords (EltTy.packing .f32)

variable [Facts₀]

def gather_S50000_S640000x1_S640000_n_0_n_n_0_1_1 : GatherDims S50000 S640000x1 S640000 where
  offsetDims := []
  collapsedSliceDims := [0]
  operandBatchingDims := []
  startIndicesBatchingDims := []
  startIndexMap := [0]
  indexVectorDim := 1
  sliceSizes := ![1]
  wf := gather_S50000_S640000x1_S640000_n_0_n_n_0_1_1_wf
def dot_S2x128_S8192x128_S2x8192_1_1_0_0_n_n : DotDims S2x128 S8192x128 S2x8192 where
  lhsContracting := [1]
  rhsContracting := [1]
  lhsNonContracting := [0]
  rhsNonContracting := [0]
  lhsBatch := []
  rhsBatch := []
  wf := dot_S2x128_S8192x128_S2x8192_1_1_0_0_n_n_wf

abbrev win0_0 : Pipeline.Window sig grid0 :=
  Pipeline.Window.ofSpecClip (Memref.whole main_arg0) S8192x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_call0_v0) S2x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_call0_v1) S2x8192.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S1x128 : Shape := ⟨2, ![1, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩

abbrev nBuf : Space → Nat
  | .hbm => 29
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S1x128, .f32⟩
  | .hbm, ⟨3, _⟩ => ⟨S1x128, .f32⟩
  | .hbm, ⟨4, _⟩ => ⟨S1x640000, .i32⟩
  | .hbm, ⟨5, _⟩ => ⟨S640000, .i32⟩
  | .hbm, ⟨6, _⟩ => ⟨S1x640000, .i32⟩
  | .hbm, ⟨7, _⟩ => ⟨S640000, .i32⟩
  | .hbm, ⟨8, _⟩ => ⟨S_, .i32⟩
  | .hbm, ⟨9, _⟩ => ⟨S640000, .i32⟩
  | .hbm, ⟨10, _⟩ => ⟨S640000, .i1⟩
  | .hbm, ⟨11, _⟩ => ⟨S_, .i32⟩
  | .hbm, ⟨12, _⟩ => ⟨S640000, .i32⟩
  | .hbm, ⟨13, _⟩ => ⟨S640000, .i32⟩
  | .hbm, ⟨14, _⟩ => ⟨S640000, .i32⟩
  | .hbm, ⟨15, _⟩ => ⟨S640000x1, .i32⟩
  | .hbm, ⟨16, _⟩ => ⟨S640000x128, .f32⟩
  | .hbm, ⟨17, _⟩ => ⟨S_, .i32⟩
  | .hbm, ⟨18, _⟩ => ⟨S640000, .i32⟩
  | .hbm, ⟨19, _⟩ => ⟨S640000, .i1⟩
  | .hbm, ⟨20, _⟩ => ⟨S_, .i32⟩
  | .hbm, ⟨21, _⟩ => ⟨S640000, .i32⟩
  | .hbm, ⟨22, _⟩ => ⟨S640000, .i32⟩
  | .hbm, ⟨23, _⟩ => ⟨S640000, .i32⟩
  | .hbm, ⟨24, _⟩ => ⟨S640000x1, .i32⟩
  | .hbm, ⟨25, _⟩ => ⟨S640000x128, .f32⟩
  | .hbm, ⟨26, _⟩ => ⟨S640000x1, .f32⟩
  | .hbm, ⟨27, _⟩ => ⟨S640000x1, .f32⟩
  | .hbm, ⟨28, _⟩ => ⟨S640000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  gather_S50000x128_S640000x1_S640000x128_1_0_n_n_0_1_1128_wf : GatherDims.WF S50000x128 S640000x1 S640000x128 [1] [0] [] [0] [] 1 ![1, 128]
  dot_S640000x128_S1x128_S640000x1_1_1_0_0_n_n_wf : DotDims.WF S640000x128 S1x128 S640000x1 [1] [1] [0] [0] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S640000x128_S1x128_S640000x1_1_1_0_0_n_n : DotDims S640000x128 S1x128 S640000x1 where
  lhsContracting := [1]
  rhsContracting := [1]
  lhsNonContracting := [0]
  rhsNonContracting := [0]
  lhsBatch := []
  rhsBatch := []
  wf := dot_S640000x128_S1x128_S640000x1_1_1_0_0_n_n_wf

class Facts : Prop extends Facts₀ where

variable [Facts]
-- ==== Proof.BodyBits.lean ====
/-
  The kernel body on its staging buffers. At one grid point the body loads the whole `8192 × 128` block of node
  features and the whole `2 × 128` block of stacked weights, forms the `2 × 8192` product "weights times
  features transposed" on the matrix unit into a zero accumulator (both operands narrowed to bf16 first), loads
  the output block (the value is not used) and stores the product over the whole output block. So: the two
  input buffers end as they were, the output buffer ends holding the product of what the inputs held —
  whatever the inputs held, rows past the array's end included.
-/
import proofs.«420680_j69681549410500_3_alg».proof.Proof.Gen.Kernel.Launch
import proofs.«420680_j69681549410500_3_alg».proof.Proof.Gen.Kernel.Skeleton
import proofs.«420680_j69681549410500_3_alg».proof.Proof.Gen.Kernel.Points
import proofs.«420680_j69681549410500_3_alg».proof.Proof.Gen.Kernel.Frame
import Idealize.ShloMosaic.Lib.Pipeline.Kit
import Idealize.ShloMosaic.Lib.Tactic

noncomputable section

namespace Cert.Kernel.Body

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

/-- The kernel's variants: none. -/
abbrev 𝒱₀ : Variants := Variants.none

/-- One run of the body on staging buffers `s0` of the features' window, `s1` of the weights' (it has one) and
    `s2` of the result's, holding `X0`, `X1`, `X2`: the inputs' buffers are left as found and the result's ends
    holding the product `k0_pay1 X0 X1` of what the inputs held. -/
theorem sound_body (c : Dev nD) (E : Set ℕ) (i : grid0.Coords) (s0 : Fin 2) (s1 : Fin 1) (s2 : Fin 2)
    (X0 : S8192x128.Idx → Elt F .f32) (X1 : S2x128.Idx → Elt F .f32) (X2 : S2x8192.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2)
          ∗ (iprop(owns (c : Thread nD τ) (stage0_0 s0) fullShare X0 ∗ owns (c : Thread nD τ) (stage0_1 s1) fullShare X1
                  ∗ owns (c : Thread nD τ) (stage0_2 s2) fullShare (k0_pay1 X0 X1)) -∗ K ⟨⟩))
      ⊢ wp frame (wpE (defs₀ (F := F)) 𝒱₀ c none) E
          (cc0__proj_kernel i (stage0_0 s0) (hstage0_0 s0) (stage0_1 s1) (hstage0_1 s1) (stage0_2 s2) (hstage0_2 s2)) K := by
  -- every access is at offset zero with the buffer's own sizes: a load reads the contents, the unmasked store
  -- writes its value over all of them
  have hz : (![0, 0] : Fin 2 → Nat) = fun _ => 0 := funext fun a => by fin_cases a <;> rfl
  fin_cases s0 <;> fin_cases s1 <;> fin_cases s2
  · have hr0 : (Memref.whole cc0_stg0_0 : Memref sig .tc _ _ _).view.readAt (Elt F) (Rect.unit (s := S8192x128) ![0, 0] S8192x128.size
        inb_S8192x128_S8192x128_0_0).toLoadRect = id := funext (Memref.readAt_unit_zero (Elt F) cc0_stg0_0 hz _)
    have hr1 : (Memref.whole cc0_stg1_0 : Memref sig .tc _ _ _).view.readAt (Elt F) (Rect.unit (s := S2x128) ![0, 0] S2x128.size
        inb_S2x128_S2x128_0_0).toLoadRect = id := funext (Memref.readAt_unit_zero (Elt F) cc0_stg1_0 hz _)
    have hw2 : ∀ f w, (((Memref.whole cc0_stg2_0).access (Rect.unit (s := S2x8192) ![0, 0] S2x8192.size inb_S2x8192_S2x8192_0_0)) :
        View sig .tc _ _ _).write (Elt F) f w Finset.univ = w := Memref.write_access_unit_zero_univ (Elt F) cc0_stg2_0 hz _
    simp only [owns_whole_eq, cc0__proj_kernel_eq_skeleton]; unfold cc0__proj_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2
  · have hr0 : (Memref.whole cc0_stg0_0 : Memref sig .tc _ _ _).view.readAt (Elt F) (Rect.unit (s := S8192x128) ![0, 0] S8192x128.size
        inb_S8192x128_S8192x128_0_0).toLoadRect = id := funext (Memref.readAt_unit_zero (Elt F) cc0_stg0_0 hz _)
    have hr1 : (Memref.whole cc0_stg1_0 : Memref sig .tc _ _ _).view.readAt (Elt F) (Rect.unit (s := S2x128) ![0, 0] S2x128.size
        inb_S2x128_S2x128_0_0).toLoadRect = id := funext (Memref.readAt_unit_zero (Elt F) cc0_stg1_0 hz _)
    have hw2 : ∀ f w, (((Memref.whole cc0_stg2_1).access (Rect.unit (s := S2x8192) ![0, 0] S2x8192.size inb_S2x8192_S2x8192_0_0)) :
        View sig .tc _ _ _).write (Elt F) f w Finset.univ = w := Memref.write_access_unit_zero_univ (Elt F) cc0_stg2_1 hz _
    simp only [owns_whole_eq, cc0__proj_kernel_eq_skeleton]; unfold cc0__proj_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2
  · have hr0 : (Memref.whole cc0_stg0_1 : Memref sig .tc _ _ _).view.readAt (Elt F) (Rect.unit (s := S8192x128) ![0, 0] S8192x128.size
        inb_S8192x128_S8192x128_0_0).toLoadRect = id := funext (Memref.readAt_unit_zero (Elt F) cc0_stg0_1 hz _)
    have hr1 : (Memref.whole cc0_stg1_0 : Memref sig .tc _ _ _).view.readAt (Elt F) (Rect.unit (s := S2x128) ![0, 0] S2x128.size
        inb_S2x128_S2x128_0_0).toLoadRect = id := funext (Memref.readAt_unit_zero (Elt F) cc0_stg1_0 hz _)
    have hw2 : ∀ f w, (((Memref.whole cc0_stg2_0).access (Rect.unit (s := S2x8192) ![0, 0] S2x8192.size inb_S2x8192_S2x8192_0_0)) :
        View sig .tc _ _ _).write (Elt F) f w Finset.univ = w := Memref.write_access_unit_zero_univ (Elt F) cc0_stg2_0 hz _
    simp only [owns_whole_eq, cc0__proj_kernel_eq_skeleton]; unfold cc0__proj_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2
  · have hr0 : (Memref.whole cc0_stg0_1 : Memref sig .tc _ _ _).view.readAt (Elt F) (Rect.unit (s := S8192x128) ![0, 0] S8192x128.size
        inb_S8192x128_S8192x128_0_0).toLoadRect = id := funext (Memref.readAt_unit_zero (Elt F) cc0_stg0_1 hz _)
    have hr1 : (Memref.whole cc0_stg1_0 : Memref sig .tc _ _ _).view.readAt (Elt F) (Rect.unit (s := S2x128) ![0, 0] S2x128.size
        inb_S2x128_S2x128_0_0).toLoadRect = id := funext (Memref.readAt_unit_zero (Elt F) cc0_stg1_0 hz _)
    have hw2 : ∀ f w, (((Memref.whole cc0_stg2_1).access (Rect.unit (s := S2x8192) ![0, 0] S2x8192.size inb_S2x8192_S2x8192_0_0)) :
        View sig .tc _ _ _).write (Elt F) f w Finset.univ = w := Memref.write_access_unit_zero_univ (Elt F) cc0_stg2_1 hz _
    simp only [owns_whole_eq, cc0__proj_kernel_eq_skeleton]; unfold cc0__proj_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2

end Cert.Kernel.Body

end
-- ==== Proof.FrameBits.lean ====
/-
  The word-level kernel's frame. The seven-point pipeline fetches blocks of the features and the weights and
  writes back blocks of the node-score table; the last features block overhangs the array, so its buffer's tail
  holds words nothing names, and what the body computes from them is not named either. The frame needs no value:
  the result's window is FORGOTTEN (handed to the body at any contents, taken back at any contents), the two input
  windows are handed back as found. Then every weakly fair execution terminates without a fault, the features' array
  — an input of the pipeline — ends as it was, and the other three arguments, which neither the pipeline nor the
  lines after it write, end as they were.
-/
import proofs.«420680_j69681549410500_3_alg».proof.Proof.BodyBits
import Idealize.ShloMosaic.Lib.Pipeline.FrameSuffix

set_option maxRecDepth 16384

noncomputable section

namespace Cert.Kernel.FrameRun

open Cert.Kernel Cert.Kernel.Gen Cert.Kernel.Body

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf kernel pipe)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result's window is forgotten; the inputs' are not. -/
abbrev fgt : Fin cfg0.W → Bool := fun | 0 => false | 1 => false | 2 => true | ⟨_ + 3, h⟩ => absurd h (Nat.not_lt.2 (Nat.le_add_left _ _))

/-- The proof data: after the body the features' buffer holds its block (a fixed word past the array's end, where
    nothing is stated), the weights' buffer the weights; the result's buffer is not named. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => iblk m c 1 t
    | ⟨2, _⟩ => fun _ => Scalar.ofBits .f32 0#32
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) :
    (dats m 0 c).after 0 t = win0_0.fill (grid0.coords t) (fun _ => Scalar.ofBits .f32 0#32) (iblk m c 0 t) := by dsimp only [dats]
theorem after0_1 (c : Dev nD) (t : Fin cfg0.N) : (dats m 0 c).after 1 t = iblk m c 1 t := by dsimp only [dats]

/-- What the body finds: the features' buffer just fetched — its block on the rows inside the array, `d` past them —, -/
theorem before_0 (c : Dev nD) (t : Fin cfg0.N) (d) :
    (dats m 0 c).before 0 t d = win0_0.fill (grid0.coords t) d (iblk m c 0 t) := by
  rw [Dat.before_fetched _ 0 t (fetch0_0 t)]
  unfold Dat.fetched Dat.blockOf iblk
  rw [A_eq]
/-- the weights' buffer at the weights, fetched at this point or kept from the first. -/
theorem before_1 (c : Dev nD) (t : Fin cfg0.N) (d) : (dats m 0 c).before 1 t d = iblk m c 1 t :=
  before0_1_of m (dats m 0 c) (A_eq m c 1) (after0_1 m c) t d

/-- At every point the body runs (`sound_body`), whatever the three buffers hold; the invariant and the core's dues
    pass through unread; the inputs' buffers are handed back as found and the result's at what the body stored. -/
theorem body_obligation (c : Dev nD) : BodyObligationLoose (dats m 0 c) (defs₀ (F := F)) 𝒱₀ () Set.univ fgt := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%X2, H2⟩⟩
  rw [before_0 m c t d0, before_1 m c t d1]
  iapply (sound_body (F := F) c Set.univ (grid0.coords t) (cfg0.slots t 0) (cfg0.slots t 1) (cfg0.slots t 2)
    (win0_0.fill (grid0.coords t) d0 (iblk m c 0 t)) (iblk m c 1 t) X2 _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  isplitl [H0]
  · iexists d0
    change _ ⊢ owns (c : Thread nD τ) (stage0_0 (cfg0.slots t 0)) fullShare
      (win0_0.fill (grid0.coords t) d0 (win0_0.cut (grid0.coords t) ((dats m 0 c).after 0 t)))
    rw [after0_0, win0_0.cut_fill]; try iexact H0
  isplitl [H1]
  · rw [after0_1]; try iexact H1
  · iexists _; iexact H2

/-- No line after the region writes one of the three arguments the pipeline does not stage. -/
theorem tail_keeps (b : Ref sig .tc) (hb : b = main_arg1 ∨ b = main_arg2 ∨ b = main_arg3) :
    ∀ op ∈ (hostOps1 : List (HloOp τ sig (Elt F))), Proc.devRef .tc b ∉ op.writes := by
  rcases hb with rfl | rfl | rfl
  all_goals
    exact List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))

/-- The buffers the lines after the region may write: all but those three. -/
abbrev T : Finset (Ref sig .tc) := Finset.univ.filter fun b => ¬(b = main_arg1 ∨ b = main_arg2 ∨ b = main_arg3)

set_option backward.isDefEq.respectTransparency.types false in
/-- Every weakly fair execution of @main terminates without a fault; the pipeline's input arrays end at their entry
    contents and every buffer the lines after the region cannot write at its contents at the region's entry. -/
theorem run_main : θ_run defs (onTc (τ := τ) (main (F := F))) (s₀ m ρ)
    (RDat.FramePostR cfg0 (fun c => (dats m 0 c).toRForget fgt) T (fun c b => V0 m c (Proc.devRef .tc b))) :=
  RDat.θ_run_frame_around_T cfgs (0 : Fin 1) launch0 defs₀ 𝒱₀ (fun c => (dats m 0 c).toRForget fgt) T m ρ main
    (hbody := fun c => (body_obligation m c).toRForget) (hshare := fun c => (dats m 0 c).share_full fun _ => rfl)
    (howed := fun _ _ => rfl) (V₀ := V0 m) (opss := [hostOps1]) (hsub := sfx_sub) (hfresh := sfx_fresh) (hkeep := sfx_keeps)
    (hT := fun ops hops op hop b hb => by
      simp only [List.mem_cons, List.mem_nil_iff, or_false] at hops
      subst hops
      exact Finset.mem_filter.mpr ⟨Finset.mem_univ _, fun h => tail_keeps b h op hop hb⟩)
    (hmain := hmain m 𝒱₀) (hA := A_eq m) (hΦ := fun _ _ => rfl)

/-- The frame: the four arguments end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(RDat.FramePostR.arr_in h c (0 : Fin 3) rfl).trans ((A_eq m c 0).trans (V_main_arg0 m c)),
      ((h c).2 main_arg1 (Finset.mem_sdiff.mpr ⟨Pipeline.mem_restRefs_of main_arg1 (by decide) (by decide), by simp [T]⟩)).trans (V_main_arg1 m c),
      ((h c).2 main_arg2 (Finset.mem_sdiff.mpr ⟨Pipeline.mem_restRefs_of main_arg2 (by decide) (by decide), by simp [T]⟩)).trans (V_main_arg2 m c),
      ((h c).2 main_arg3 (Finset.mem_sdiff.mpr ⟨Pipeline.mem_restRefs_of main_arg3 (by decide) (by decide), by simp [T]⟩)).trans (V_main_arg3 m c)⟩)
    (run_main m ρ)

end Cert.Kernel.FrameRun

end
-- ==== Proof.BodyIdeal.lean ====
/-
  The kernel body on its staging buffers. At one grid point the body loads the whole `8192 × 128` block of node
  features and the whole `2 × 128` block of stacked weights, forms the `2 × 8192` product "weights times
  features transposed" on the matrix unit into a zero accumulator (both operands narrowed to bf16 first), loads
  the output block (the value is not used) and stores the product over the whole output block. So: the two
  input buffers end as they were, the output buffer ends holding the product of what the inputs held —
  whatever the inputs held, rows past the array's end included.
-/
import proofs.«420680_j69681549410500_3_alg».proof.Proof.Gen.KernelIdeal.Launch
import proofs.«420680_j69681549410500_3_alg».proof.Proof.Gen.KernelIdeal.Skeleton
import proofs.«420680_j69681549410500_3_alg».proof.Proof.Gen.KernelIdeal.Points
import proofs.«420680_j69681549410500_3_alg».proof.Proof.Gen.KernelIdeal.Frame
import Idealize.ShloMosaic.Lib.Pipeline.Kit
import Idealize.ShloMosaic.Lib.Tactic

noncomputable section

namespace Cert.KernelIdeal.Body

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

/-- The kernel's variants: none. -/
abbrev 𝒱₀ : Variants := Variants.none

/-- One run of the body on staging buffers `s0` of the features' window, `s1` of the weights' (it has one) and
    `s2` of the result's, holding `X0`, `X1`, `X2`: the inputs' buffers are left as found and the result's ends
    holding the product `k0_pay1 X0 X1` of what the inputs held. -/
theorem sound_body (c : Dev nD) (E : Set ℕ) (i : grid0.Coords) (s0 : Fin 2) (s1 : Fin 1) (s2 : Fin 2)
    (X0 : S8192x128.Idx → Elt F .f32) (X1 : S2x128.Idx → Elt F .f32) (X2 : S2x8192.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2)
          ∗ (iprop(owns (c : Thread nD τ) (stage0_0 s0) fullShare X0 ∗ owns (c : Thread nD τ) (stage0_1 s1) fullShare X1
                  ∗ owns (c : Thread nD τ) (stage0_2 s2) fullShare (k0_pay1 X0 X1)) -∗ K ⟨⟩))
      ⊢ wp frame (wpE (defs₀ (F := F)) 𝒱₀ c none) E
          (cc0__proj_kernel i (stage0_0 s0) (hstage0_0 s0) (stage0_1 s1) (hstage0_1 s1) (stage0_2 s2) (hstage0_2 s2)) K := by
  -- every access is at offset zero with the buffer's own sizes: a load reads the contents, the unmasked store
  -- writes its value over all of them
  have hz : (![0, 0] : Fin 2 → Nat) = fun _ => 0 := funext fun a => by fin_cases a <;> rfl
  fin_cases s0 <;> fin_cases s1 <;> fin_cases s2
  · have hr0 : (Memref.whole cc0_stg0_0 : Memref sig .tc _ _ _).view.readAt (Elt F) (Rect.unit (s := S8192x128) ![0, 0] S8192x128.size
        inb_S8192x128_S8192x128_0_0).toLoadRect = id := funext (Memref.readAt_unit_zero (Elt F) cc0_stg0_0 hz _)
    have hr1 : (Memref.whole cc0_stg1_0 : Memref sig .tc _ _ _).view.readAt (Elt F) (Rect.unit (s := S2x128) ![0, 0] S2x128.size
        inb_S2x128_S2x128_0_0).toLoadRect = id := funext (Memref.readAt_unit_zero (Elt F) cc0_stg1_0 hz _)
    have hw2 : ∀ f w, (((Memref.whole cc0_stg2_0).access (Rect.unit (s := S2x8192) ![0, 0] S2x8192.size inb_S2x8192_S2x8192_0_0)) :
        View sig .tc _ _ _).write (Elt F) f w Finset.univ = w := Memref.write_access_unit_zero_univ (Elt F) cc0_stg2_0 hz _
    simp only [owns_whole_eq, cc0__proj_kernel_eq_skeleton]; unfold cc0__proj_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2
  · have hr0 : (Memref.whole cc0_stg0_0 : Memref sig .tc _ _ _).view.readAt (Elt F) (Rect.unit (s := S8192x128) ![0, 0] S8192x128.size
        inb_S8192x128_S8192x128_0_0).toLoadRect = id := funext (Memref.readAt_unit_zero (Elt F) cc0_stg0_0 hz _)
    have hr1 : (Memref.whole cc0_stg1_0 : Memref sig .tc _ _ _).view.readAt (Elt F) (Rect.unit (s := S2x128) ![0, 0] S2x128.size
        inb_S2x128_S2x128_0_0).toLoadRect = id := funext (Memref.readAt_unit_zero (Elt F) cc0_stg1_0 hz _)
    have hw2 : ∀ f w, (((Memref.whole cc0_stg2_1).access (Rect.unit (s := S2x8192) ![0, 0] S2x8192.size inb_S2x8192_S2x8192_0_0)) :
        View sig .tc _ _ _).write (Elt F) f w Finset.univ = w := Memref.write_access_unit_zero_univ (Elt F) cc0_stg2_1 hz _
    simp only [owns_whole_eq, cc0__proj_kernel_eq_skeleton]; unfold cc0__proj_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2
  · have hr0 : (Memref.whole cc0_stg0_1 : Memref sig .tc _ _ _).view.readAt (Elt F) (Rect.unit (s := S8192x128) ![0, 0] S8192x128.size
        inb_S8192x128_S8192x128_0_0).toLoadRect = id := funext (Memref.readAt_unit_zero (Elt F) cc0_stg0_1 hz _)
    have hr1 : (Memref.whole cc0_stg1_0 : Memref sig .tc _ _ _).view.readAt (Elt F) (Rect.unit (s := S2x128) ![0, 0] S2x128.size
        inb_S2x128_S2x128_0_0).toLoadRect = id := funext (Memref.readAt_unit_zero (Elt F) cc0_stg1_0 hz _)
    have hw2 : ∀ f w, (((Memref.whole cc0_stg2_0).access (Rect.unit (s := S2x8192) ![0, 0] S2x8192.size inb_S2x8192_S2x8192_0_0)) :
        View sig .tc _ _ _).write (Elt F) f w Finset.univ = w := Memref.write_access_unit_zero_univ (Elt F) cc0_stg2_0 hz _
    simp only [owns_whole_eq, cc0__proj_kernel_eq_skeleton]; unfold cc0__proj_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2
  · have hr0 : (Memref.whole cc0_stg0_1 : Memref sig .tc _ _ _).view.readAt (Elt F) (Rect.unit (s := S8192x128) ![0, 0] S8192x128.size
        inb_S8192x128_S8192x128_0_0).toLoadRect = id := funext (Memref.readAt_unit_zero (Elt F) cc0_stg0_1 hz _)
    have hr1 : (Memref.whole cc0_stg1_0 : Memref sig .tc _ _ _).view.readAt (Elt F) (Rect.unit (s := S2x128) ![0, 0] S2x128.size
        inb_S2x128_S2x128_0_0).toLoadRect = id := funext (Memref.readAt_unit_zero (Elt F) cc0_stg1_0 hz _)
    have hw2 : ∀ f w, (((Memref.whole cc0_stg2_1).access (Rect.unit (s := S2x8192) ![0, 0] S2x8192.size inb_S2x8192_S2x8192_0_0)) :
        View sig .tc _ _ _).write (Elt F) f w Finset.univ = w := Memref.write_access_unit_zero_univ (Elt F) cc0_stg2_1 hz _
    simp only [owns_whole_eq, cc0__proj_kernel_eq_skeleton]; unfold cc0__proj_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2

end Cert.KernelIdeal.Body

end
-- ==== Proof.PayIdeal.lean ====
/-
  The body's product at an index, over the extended reals. The body narrows both operands to bf16 (the identity
  on extended reals), and multiplies the `2 × 128` weights by the transposed `8192 × 128` feature block on the
  matrix unit into a zero accumulator: entry `(p, q)` of the `2 × 8192` product is `Σ_k W[p,k] · X[q,k]`, a
  function of weight row `p` and of feature row `q` alone.
-/
import proofs.«420680_j69681549410500_3_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Pay

open Cert.KernelIdeal Cert.KernelIdeal.Gen Idealize.ShloMosaic Idealize.ShloMosaic.ValueIdx

/-- The product's operand indices, axis by axis: the left operand is read at (output row, contraction index), -/
theorem lhs_0 (i : S2x8192.Idx) (q : dot_S2x128_S8192x128_S2x8192_1_1_0_0_n_n.contr.Idx) :
    (dot_S2x128_S8192x128_S2x8192_1_1_0_0_n_n.lhsIdx i q 0).val = (i 0).val := by
  unfold DotDims.lhsIdx
  rw [dif_neg (show ¬(0 : Fin S2x128.rank) ∈ dot_S2x128_S8192x128_S2x8192_1_1_0_0_n_n.lhsBatch by decide), dif_pos (show (0 : Fin S2x128.rank) ∈ dot_S2x128_S8192x128_S2x8192_1_1_0_0_n_n.lhsNonContracting by decide)]
  rfl
theorem lhs_1 (i : S2x8192.Idx) (q : dot_S2x128_S8192x128_S2x8192_1_1_0_0_n_n.contr.Idx) :
    (dot_S2x128_S8192x128_S2x8192_1_1_0_0_n_n.lhsIdx i q 1).val = (q ⟨0, by decide⟩).val :=
  dot_S2x128_S8192x128_S2x8192_1_1_0_0_n_n.lhsIdx_val_of_single rfl i q
/-- the right operand at (output column, contraction index): the contraction runs over the LAST axis of both. -/
theorem rhs_0 (i : S2x8192.Idx) (q : dot_S2x128_S8192x128_S2x8192_1_1_0_0_n_n.contr.Idx) :
    (dot_S2x128_S8192x128_S2x8192_1_1_0_0_n_n.rhsIdx i q 0).val = (i 1).val := by
  unfold DotDims.rhsIdx
  rw [dif_neg (show ¬(0 : Fin S8192x128.rank) ∈ dot_S2x128_S8192x128_S2x8192_1_1_0_0_n_n.rhsBatch by decide), dif_pos (show (0 : Fin S8192x128.rank) ∈ dot_S2x128_S8192x128_S2x8192_1_1_0_0_n_n.rhsNonContracting by decide)]
  rfl
theorem rhs_1 (i : S2x8192.Idx) (q : dot_S2x128_S8192x128_S2x8192_1_1_0_0_n_n.contr.Idx) :
    (dot_S2x128_S8192x128_S2x8192_1_1_0_0_n_n.rhsIdx i q 1).val = (q ⟨0, by decide⟩).val :=
  dot_S2x128_S8192x128_S2x8192_1_1_0_0_n_n.rhsIdx_val_of_single rfl i q

/-- Entry `i = (p, q)` of the body's product is `Σ_k W[p,k] · X[q,k]`. -/
theorem pay_apply (X0 : Vec Ideal S8192x128 .f32) (X1 : Vec Ideal S2x128 .f32) (i : S2x8192.Idx) :
    k0_pay1 (F := Ideal) X0 X1 i = ∑ k : Fin 128, X1 (ix2 (i 0) k) * X0 (ix2 (i 1) k) := by
  have key : k0_pay1 (F := Ideal) X0 X1
      = FloatOps.matmul (F := Ideal) (φ₁ := .bf16) (φ₂ := .bf16) dot_S2x128_S8192x128_S2x8192_1_1_0_0_n_n none X1 X0 (constant S2x8192 .f32 0x00000000#32) := by
    unfold k0_pay1
    rw [shapeCast_self]
    rfl
  rw [key, Ideal.matmul_constant_zero_apply, ← Equiv.sum_comp (contrEquiv1 dot_S2x128_S8192x128_S2x8192_1_1_0_0_n_n 128 rfl rfl).symm]
  refine Finset.sum_congr rfl fun k _ => ?_
  have hk := contrEquiv1_symm_val dot_S2x128_S8192x128_S2x8192_1_1_0_0_n_n 128 rfl rfl k
  have el : dot_S2x128_S8192x128_S2x8192_1_1_0_0_n_n.lhsIdx i ((contrEquiv1 dot_S2x128_S8192x128_S2x8192_1_1_0_0_n_n 128 rfl rfl).symm k) = ix2 (i 0) k := funext fun a => Fin.ext (by
    match a with
    | ⟨0, _⟩ => exact lhs_0 _ _
    | ⟨1, _⟩ => exact (lhs_1 _ _).trans hk)
  have er : dot_S2x128_S8192x128_S2x8192_1_1_0_0_n_n.rhsIdx i ((contrEquiv1 dot_S2x128_S8192x128_S2x8192_1_1_0_0_n_n 128 rfl rfl).symm k) = ix2 (i 1) k := funext fun a => Fin.ext (by
    match a with
    | ⟨0, _⟩ => exact rhs_0 _ _
    | ⟨1, _⟩ => exact (rhs_1 _ _).trans hk)
  rw [el, er]
  rfl

end Cert.KernelIdeal.Pay

end
-- ==== Proof.RunIdeal.lean ====
/-
  The idealized kernel's pallas_call, as a value. The grid has seven points; point `t` fetches feature rows
  `8192·t …` (the last point's block overhangs the 50000 rows: its tail holds words nothing names), the whole
  stacked weights, and writes back columns `8192·t …` of the `2 × 50000` node-score table, cut at the table's end.
  The body's product has entry `(p, q) = Σ_k W[p,k] · X_blk[q,k]`: column `q` reads feature row `q` of the block
  alone, so every column that is written back (its row lies inside the array) is the node score
  `G[p, 8192·t + q] = Σ_k W[p,k] · X[8192·t + q, k]`, whatever the overhanging rows held. The written-back columns
  of the seven points cover the table, so the table ends holding `G`.
-/
import proofs.«420680_j69681549410500_3_alg».proof.Proof.BodyIdeal
import proofs.«420680_j69681549410500_3_alg».proof.Proof.PayIdeal
import Idealize.ShloMosaic.Lib.Pipeline.Value
import Idealize.ShloMosaic.Lib.Pipeline.FrameSuffix

set_option maxRecDepth 16384

noncomputable section

namespace Cert.KernelIdeal.Run

open Cert.KernelIdeal Cert.KernelIdeal.Gen Cert.KernelIdeal.Body

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

local notation "𝕄" => MT nD τ sig Unit (Elt Ideal) ℕ (UR sig nD τ) ℕ

variable (m : (ℓ : Loc nD τ sig) → Buf (Elt Ideal) ℓ) (ρ : Dev nD → PrngReg)

/-- The feature array and the stacked weights as the region finds them. -/
abbrev xarr (c : Dev nD) : FVec Ideal S50000x128 .f32 := V m c main_arg0
abbrev warr (c : Dev nD) : FVec Ideal S2x128 .f32 := V m c main_call0_v0

/-- The node-score table: entry `(p, n)` is weight row `p` against node `n`'s features. -/
def Gfun (c : Dev nD) : S2x50000.Idx → EReal :=
  fun i => ∑ k : Fin 128, warr m c (ix2 (i 0) k) * xarr m c (ix2 (i 1) k)
/-- The same, typed as contents of the table's buffer. -/
def G (c : Dev nD) : Buf (Elt Ideal) ((c : Thread nD τ).loc main_call0_v1) := Gfun m c

/-! ## The proof data -/

/-- After the body at point `t`: the features' buffer holds its block (zero past the array's end, where nothing
    is stated), the weights' buffer the weights, the result's buffer the table's block (zero past the table's end). -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => iblk m c 1 t
    | ⟨2, _⟩ => win0_2.fill (grid0.coords t) (fun _ => (0 : EReal)) ((win0_2.blk t).view.read (Elt Ideal) (G m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) :
    (dats m 0 c).after 0 t = win0_0.fill (grid0.coords t) (fun _ => (0 : EReal)) (iblk m c 0 t) := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = win0_2.fill (grid0.coords t) (fun _ => (0 : EReal)) ((win0_2.blk t).view.read (Elt Ideal) (G m c)) := by
  dsimp only [dats]

/-- What the body finds: the features' buffer just fetched — the block on the rows inside the array, `d` past them —, -/
theorem before_0 (c : Dev nD) (t : Fin cfg0.N) (d) :
    (dats m 0 c).before 0 t d = win0_0.fill (grid0.coords t) d (iblk m c 0 t) := by
  rw [Dat.before_fetched _ 0 t (fetch0_0 t)]
  unfold Dat.fetched Dat.blockOf iblk
  rw [A_eq]
/-- the weights' buffer at the weights, fetched at this point or kept from the first, -/
theorem before_1 (c : Dev nD) (t : Fin cfg0.N) (d) : (dats m 0 c).before 1 t d = iblk m c 1 t :=
  before0_1_of m (dats m 0 c) (A_eq m c 1) (after0_1 m c) t d
/-- the result's buffer at contents nothing names (every point writes it back). -/
theorem before_2 (c : Dev nD) (t : Fin cfg0.N) (d) : (dats m 0 c).before 2 t d = d := by
  refine Dat.before_out_reset _ 2 rfl t ?_ d
  by_cases h : t.val = 0
  · exact .inl h
  · exact .inr ⟨h, flush0_2 _⟩

/-! ## A written-back column of the body's product is a node score -/

/-- The windows' index maps and cuts over the grid, decided once. -/
theorem idx_facts : ∀ t : Fin cfg0.N,
    win0_0.index t 0 = t.val ∧ win0_0.index t 1 = 0 ∧ win0_2.index t 0 = 0 ∧ win0_2.index t 1 = t.val
    ∧ win0_1.index t 0 = 0 ∧ win0_1.index t 1 = 0
    ∧ win0_0.xsize (grid0.coords t) 0 = win0_2.xsize (grid0.coords t) 1
    ∧ win0_0.xsize (grid0.coords t) 1 = 128 ∧ win0_2.xsize (grid0.coords t) 0 = 2
    ∧ win0_2.xsize (grid0.coords t) 1 = min 8192 (50000 - 8192 * t.val) :=
  (by decide +kernel : ∀ t : Fin grid0.N, _)

/-- The part of the body's product that point `t` writes back is the table's block there: column `q` of the
    product reads row `q` of the features' buffer, which for a written-back column is a row the fetch filled. -/
theorem cut_pay (c : Dev nD) (t : Fin cfg0.N) (d0 : S8192x128.Idx → EReal) :
    win0_2.cut (grid0.coords t) (k0_pay1 (F := Ideal) (win0_0.fill (grid0.coords t) d0 (iblk m c 0 t)) (iblk m c 1 t))
      = (win0_2.blk t).view.read (Elt Ideal) (G m c) := by
  obtain ⟨h00, h01, h20, h21, h10, h11, hxs, hx1, hx2, -⟩ := idx_facts t
  funext j
  have hj1 : (j 1).val < win0_0.xsize (grid0.coords t) 0 := hxs ▸ (j 1).isLt
  rw [show win0_2.cut (grid0.coords t) (k0_pay1 (F := Ideal) (win0_0.fill (grid0.coords t) d0 (iblk m c 0 t)) (iblk m c 1 t)) j
      = k0_pay1 (F := Ideal) (win0_0.fill (grid0.coords t) d0 (iblk m c 0 t)) (iblk m c 1 t) (win0_2.xinj (grid0.coords t) j) from rfl,
    Pay.pay_apply, View.read_apply]
  show _ = Gfun m c ((win0_2.blk t).view.emb j)
  unfold Gfun
  refine Finset.sum_congr rfl fun k _ => ?_
  have hk1 : k.val < win0_0.xsize (grid0.coords t) 1 := by rw [hx1]; exact k.isLt
  -- the row of the features' buffer that column `j 1` reads, as an index of the fetched part
  let j' : (win0_0.xblock (grid0.coords t)).Idx := fun a => match a with
    | ⟨0, _⟩ => ⟨(j 1).val, hj1⟩
    | ⟨1, _⟩ => ⟨k.val, hk1⟩
  have hj' : win0_0.xinj (grid0.coords t) j' = ix2 (win0_2.xinj (grid0.coords t) j 1) k :=
    funext fun a => Fin.ext (by match a with | ⟨0, _⟩ => rfl | ⟨1, _⟩ => rfl)
  have hf := win0_0.fill_xinj (grid0.coords t) d0 (iblk m c 0 t) j'
  rw [hj'] at hf
  refine congrArg₂ (fun a b : EReal => a * b) ?_ (hf.trans ?_)
  · unfold iblk
    rw [View.read_apply]
    show V m c main_call0_v0 (((cfg0.win 1).blk t).view.emb _) = V m c main_call0_v0 _
    refine congrArg _ (funext fun a => Fin.ext ?_)
    match a with
    | ⟨0, _⟩ =>
      show win0_1.index t 0 * 2 + 1 * (j 0).val = win0_2.index t 0 * 2 + 1 * (j 0).val
      rw [h10, h20]
    | ⟨1, _⟩ =>
      show win0_1.index t 1 * 128 + 1 * k.val = k.val
      rw [h11]; omega
  · unfold iblk
    rw [View.read_apply]
    show V m c main_arg0 (((cfg0.win 0).blk t).view.emb j') = V m c main_arg0 _
    refine congrArg _ (funext fun a => Fin.ext ?_)
    match a with
    | ⟨0, _⟩ =>
      show win0_0.index t 0 * 8192 + 1 * (j 1).val = win0_2.index t 1 * 8192 + 1 * (j 1).val
      rw [h00, h21]
    | ⟨1, _⟩ =>
      show win0_0.index t 1 * 128 + 1 * k.val = k.val
      rw [h01]; omega

/-! ## The body obligation -/

/-- At every point: the body runs on the fetched buffers (`sound_body`), the invariant and the core's dues pass
    through unread; the features' buffer is handed back as found, and the product agrees with the table's block on
    the part that is written back (`cut_pay`), which is all the obligation of a cut window states. -/
theorem body_obligation (c : Dev nD) : BodyObligationLoose (dats m 0 c) (defs₀ (F := Ideal)) 𝒱₀ () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1, before_2 m c t d2]
  iapply (sound_body (F := Ideal) c Set.univ (grid0.coords t) (cfg0.slots t 0) (cfg0.slots t 1) (cfg0.slots t 2)
    (win0_0.fill (grid0.coords t) d0 (iblk m c 0 t)) (iblk m c 1 t) d2 _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  isplitl [H0]
  · iexists d0
    change _ ⊢ owns (c : Thread nD τ) (stage0_0 (cfg0.slots t 0)) fullShare
      (win0_0.fill (grid0.coords t) d0 (win0_0.cut (grid0.coords t) ((dats m 0 c).after 0 t)))
    rw [after0_0, win0_0.cut_fill]; try iexact H0
  isplitl [H1]
  · rw [after0_1]; try iexact H1
  · iexists k0_pay1 (F := Ideal) (win0_0.fill (grid0.coords t) d0 (iblk m c 0 t)) (iblk m c 1 t)
    change _ ⊢ owns (c : Thread nD τ) (stage0_2 (cfg0.slots t 2)) fullShare
      (win0_2.fill (grid0.coords t) (k0_pay1 (F := Ideal) (win0_0.fill (grid0.coords t) d0 (iblk m c 0 t)) (iblk m c 1 t))
        (win0_2.cut (grid0.coords t) ((dats m 0 c).after 2 t)))
    rw [after0_2, win0_2.cut_fill, ← cut_pay m c t d0, win0_2.fill_cut]; try iexact H2

/-! ## The run -/

set_option backward.isDefEq.respectTransparency.types false in
/-- Every weakly fair execution of @main terminates; the pipeline's arrays end at what the proof data computes and
    every other buffer as the lines after the region leave it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ 𝒱₀ m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := A_eq m) (hΦ := fun _ _ => rfl)

/-! ## The node-score table after the region -/

/-- What point `t` writes back is the table's block there. -/
theorem flushed_eq (c : Dev nD) (t : Fin cfg0.N) :
    (dats m 0 c).flushed 2 t = ((cfg0.win 2).blk t).view.read (Elt Ideal) (G m c) := by
  show win0_2.cut (grid0.coords t) ((dats m 0 c).after 2 t) = _
  rw [after0_2]
  exact win0_2.cut_fill _ _ _

/-- An entry of the table lies in point `t`'s written-back part iff, axis by axis, it lies between the block's start
    and the start plus the cut extent. -/
theorem mem_blk (t : Fin cfg0.N) (i : S2x50000.Idx) :
    i ∈ ((cfg0.win 2).blk t).view.set ↔ ∀ a, win0_2.index t a * win0_2.size a ≤ (i a).val
      ∧ (i a).val < win0_2.index t a * win0_2.size a + win0_2.xsize (grid0.coords t) a := by
  show i ∈ ((View.whole main_call0_v1).slice (win0_2.rect t)).set ↔ _
  rw [View.set_slice_whole, Rect.mem_set_unit]

/-- Every entry of the table lies in the written-back part of some point's block: column `n` in point `n / 8192`'s. -/
theorem cover (i : S2x50000.Idx) :
    ∃ t : Fin cfg0.N, (cfg0.win 2).flush t = true ∧ i ∈ ((cfg0.win 2).blk t).view.set := by
  have h0 : (i 0).val < 2 := (i 0).isLt
  have h1 : (i 1).val < 50000 := (i 1).isLt
  have ht : (i 1).val / 8192 < cfg0.N := by rw [show cfg0.N = 7 from N_0]; omega
  obtain ⟨-, -, h20, h21, -, -, -, -, hx2, hx⟩ := idx_facts ⟨(i 1).val / 8192, ht⟩
  refine ⟨⟨(i 1).val / 8192, ht⟩, flush0_2 _, (mem_blk _ i).mpr fun a => ?_⟩
  match a with
  | ⟨0, _⟩ =>
    show win0_2.index _ 0 * 2 ≤ (i 0).val ∧ (i 0).val < win0_2.index _ 0 * 2 + win0_2.xsize _ 0
    rw [h20, hx2]; omega
  | ⟨1, _⟩ =>
    show win0_2.index _ 1 * 8192 ≤ (i 1).val ∧ (i 1).val < win0_2.index _ 1 * 8192 + win0_2.xsize _ 1
    rw [h21, hx]; simp only []; omega

/-- The table ends holding the node scores. -/
theorem final_table (c : Dev nD) : (dats m 0 c).arrAt 2 cfg0.N = G m c :=
  (dats m 0 c).arrAt_eq_of_cover 2 (G m c) (fun t _ => flushed_eq m c t) (cover)

end Cert.KernelIdeal.Run

end
-- ==== Proof.Spec.lean ====
/-
  The edge decoder as one function of the argument arrays, over the extended reals.

  Every node `n` gets two scores, `s₀ n = Σ_k W1[0,k] · X[n,k]` and `s₁ n = Σ_k W2[0,k] · X[n,k]`
  (`nodeScores`, a 2 × 50000 table); edge `e` with endpoints `src e`, `dst e` gets
  `s₀ (src e) + s₁ (dst e)` (`edgeScores`). The endpoints are read off the 2 × 640000 index
  array as naturals; `InRange` says every entry names a node, `0 ≤ entry < 50000`.
-/
import Idealize.ShloMosaic.PureOps.Ideal
import Idealize.ShloMosaic.Lib.ValueIdx

noncomputable section

namespace Cert.Spec

open Idealize.ShloMosaic Idealize.ShloMosaic.ValueIdx

/-- The literal shapes of the arguments, the node-score table and the result. -/
abbrev SX : Shape := ⟨2, ![50000, 128]⟩
abbrev SE : Shape := ⟨2, ![2, 640000]⟩
abbrev SW : Shape := ⟨2, ![1, 128]⟩
abbrev SY : Shape := ⟨2, ![2, 50000]⟩
abbrev SO : Shape := ⟨2, ![640000, 1]⟩

/-- Every entry of the edge array is a node number. -/
def InRange (E : IVec SE 32) : Prop := ∀ i : SE.Idx, 0 ≤ (E i).toInt ∧ (E i).toInt < 50000

/-- Endpoint `r` (0 the source, 1 the destination) of edge `e`, as a node number. Total: reduced mod 50000,
    which changes nothing on an array that is `InRange`. -/
def node (E : IVec SE 32) (r : Fin 2) (e : Fin 640000) : Fin 50000 :=
  ⟨(E (ix2 r e)).toNat % 50000, Nat.mod_lt _ (by decide)⟩

theorem node_val {E : IVec SE 32} (h : InRange E) (r : Fin 2) (e : Fin 640000) :
    ((node E r e).val : Int) = (E (ix2 r e)).toInt ∧ (E (ix2 r e)).toNat < 50000 := by
  obtain ⟨h0, h1⟩ := h (ix2 r e)
  have hn : ((E (ix2 r e)).toNat : Int) = (E (ix2 r e)).toInt := by
    rw [BitVec.toInt_eq_toNat_cond] at h0 h1 ⊢
    split at h0 <;> omega
  have hlt : (E (ix2 r e)).toNat < 50000 := by omega
  exact ⟨by show (((E (ix2 r e)).toNat % 50000 : Nat) : Int) = _; rw [Nat.mod_eq_of_lt hlt]; exact hn, hlt⟩

/-- Row `o` of the stacked weights: `W1` for `o = 0`, `W2` for `o = 1`. -/
def wrow (W1 W2 : FVec Ideal SW .f32) (o : Fin 2) (k : Fin 128) : EReal :=
  if o.val = 0 then W1 (ix2 0 k) else W2 (ix2 0 k)

/-- The node scores: entry `(o, n)` is weight row `o` against node `n`'s features. -/
def nodeScores (X : FVec Ideal SX .f32) (W1 W2 : FVec Ideal SW .f32) : SY.Idx → EReal :=
  fun i => ∑ k : Fin 128, wrow W1 W2 (i 0) k * X (ix2 (i 1) k)

/-- The edge scores: the source's score under `W1` plus the destination's under `W2`. -/
def edgeScores (X : FVec Ideal SX .f32) (E : IVec SE 32) (W1 W2 : FVec Ideal SW .f32) : SO.Idx → EReal :=
  fun i => nodeScores X W1 W2 (ix2 0 (node E 0 (i 0))) + nodeScores X W1 W2 (ix2 1 (node E 1 (i 0)))

end Cert.Spec

end
-- ==== Proof.Tail.lean ====
/-
  The kernel program's operations after its region, as one function of the node-score table and the edge array,
  and that function read at an edge.

  Per endpoint r ∈ {0, 1}: row r of the edge array is cut out and flattened to a vector of 640000 entries; row r of the
  2 × 50000 score table is cut out and flattened to a vector of 50000 scores; each entry e is wrapped
  (e + 50000 if e < 0, else e) and laid out as a 640000 × 1 column w; a validity bit per edge is the conjunction,
  over the column's single entry, of 0 ≤ w and w ≤ 49999; the scores are gathered at w (the start index read signed
  and clamped into the table); an edge whose bit is not set gets a fixed quiet-NaN word instead. The two vectors,
  each as a 640000 × 1 column, are added.

  For an edge array whose entries all name nodes (0 ≤ entry < 50000) the wrap is the identity, every validity bit is
  set, the clamp is the identity, and so edge e gets  table[0, E[0,e]] + table[1, E[1,e]].
-/
import proofs.«420680_j69681549410500_3_alg».proof.Proof.Gen.KernelIdeal.Launch
import proofs.«420680_j69681549410500_3_alg».proof.Proof.Spec
import Idealize.ShloMosaic.Lib.StableHlo.Run
import Idealize.ShloMosaic.Lib.StableHlo.Predicate
import Idealize.ShloMosaic.Lib.ValueLayout
import Idealize.ShloMosaic.Lib.ValueIdx
import Idealize.ShloMosaic.Lib.Pipeline.Value
import Idealize.ShloMosaic.PureOps.Reduce

noncomputable section

namespace Cert.KernelIdeal.Tail

open Cert.KernelIdeal Cert.KernelIdeal.Gen Idealize.ShloMosaic Idealize.ShloMosaic.ValueIdx

/-! ## The operations as functions -/

/-- Row `r` of the edge array as a vector: the slice at offsets `off` (a 1 × 640000 row), flattened. -/
def edgeRow (off : Fin 2 → Nat) (h : S2x640000.Slices off S1x640000) (E : IVec S2x640000 32) : IVec S640000 32 :=
  shapeCast S640000 (extractStridedSlice S1x640000 off E h) shapeCasts_S1x640000_S640000

/-- Row `r` of the score table as a vector: the slice at offsets `off` (a 1 × 50000 row), flattened. -/
def scoreRow {F : FTy → Type} [FloatOps F] (off : Fin 2 → Nat) (h : S2x50000.Slices off S1x50000)
    (Yt : FVec F S2x50000 .f32) : FVec F S50000 .f32 :=
  shapeCast S50000 (extractStridedSlice S1x50000 off Yt h) shapeCasts_S1x50000_S50000

/-- The wrapped start indices as a 640000 × 1 column: entry `e` becomes `e + 50000` when negative. -/
def wrapCol (idx : IVec S640000 32) : IVec S640000x1 32 :=
  broadcastInDim S640000x1 ![0] bcast_S640000_S640000x1_0
    (select (cmpi .slt idx (broadcastInDim S640000 ![] bcast_S_S640000 (constantI S_ 32 0#32)))
      (addi idx (broadcastInDim S640000 ![] bcast_S_S640000 (constantI S_ 32 50000#32))) idx)

/-- The validity column: `0 ≤ w` and `w ≤ 49999`, entry by entry. -/
def inBounds (w : IVec S640000x1 32) : IVec S640000x1 1 :=
  andi (cmpi .sge w (broadcastInDim S640000x1 ![] bcast_S_S640000x1 (constantI S_ 32 0#32)))
    (cmpi .sle w (broadcastInDim S640000x1 ![0, 1] bcast_S1x1_S640000x1_0_1
      (broadcastInDim S1x1 ![1] bcast_S1_S1x1_1 (constantI S1 32 49999#32))))

/-- The validity bit per edge: the conjunction of the column's entries along its unit axis. -/
def okBits (w : IVec S640000x1 32) : IVec S640000 1 :=
  Host.reduce IntOp.andi (inBounds w) (constantI S_ 1 1#1) reducesTo_S640000x1_S640000_d1 h_S_

/-- The take of a score vector at an index vector: wrap, gather, and the quiet-NaN word where the wrapped index is out
    of the table. -/
def takeRow {F : FTy → Type} [FloatOps F] (row : FVec F S50000 .f32) (idx : IVec S640000 32) : FVec F S640000 .f32 :=
  select (okBits (wrapCol idx))
    (Host.gather gather_S50000_S640000x1_S640000_n_0_n_n_0_1_1 row (wrapCol idx))
    (broadcastInDim S640000 ![] bcast_S_S640000 (constant (F := F) S_ .f32 0x7FC00000#32))

/-- The operations after the region: the two takes, each as a column, added. -/
def tailFn {F : FTy → Type} [FloatOps F] (Yt : FVec F S2x50000 .f32) (E : IVec S2x640000 32) : FVec F S640000x1 .f32 :=
  addf
    (broadcastInDim S640000x1 ![0] bcast_S640000_S640000x1_0
      (takeRow (scoreRow ![0, 0] slices_S2x50000_S1x50000_0_0 Yt) (edgeRow ![0, 0] slices_S2x640000_S1x640000_0_0 E)))
    (broadcastInDim S640000x1 ![0] bcast_S640000_S640000x1_0
      (takeRow (scoreRow ![1, 0] slices_S2x50000_S1x50000_1_0 Yt) (edgeRow ![1, 0] slices_S2x640000_S1x640000_1_0 E)))

set_option maxHeartbeats 1000000 in
/-- The program's 55 operations after the region leave, in the result buffer, `tailFn` of the score table's buffer and
    the edge array's buffer. -/
theorem tail_after {F : FTy → Type} [FloatOps F] (V : Valuation τ sig (Elt F)) :
    StableHlo.after (hostOps1 (F := F)) V (Proc.devRef .tc main_v0)
      = tailFn (F := F) (V (Proc.devRef .tc main_call0_v1)) (V (Proc.devRef .tc main_arg1)) := by
  dsimp only [hostOps1]
  after_results_simp
  simp only [StableHlo.TRef.ofBuf, StableHlo.TRef.toBuf, cast_eq]
  unfold tailFn takeRow okBits inBounds wrapCol scoreRow edgeRow
  rfl

/-! ## Words: an entry that names a node -/

/-- A non-negative word is not below zero: the wrap leaves it alone. -/
theorem wrap_word (x : BitVec 32) (h0 : 0 ≤ x.toInt) :
    Scalar.select (IntOp.cmpi .slt x 0#32) (IntOp.addi x 50000#32) x = x := by
  have hs : x.slt 0#32 = false := by
    rw [BitVec.slt]; simp only [BitVec.toInt_zero, decide_eq_false_iff_not]; omega
  show Scalar.select (BitVec.ofBool (x.slt 0#32)) _ _ = _
  rw [hs]
  exact select_zero _ _

/-- A word between 0 and 49999 passes both bounds tests. -/
theorem bounds_word (x : BitVec 32) (h0 : 0 ≤ x.toInt) (h1 : x.toInt < 50000) :
    IntOp.andi (IntOp.cmpi .sge x 0#32) (IntOp.cmpi .sle x 49999#32) = 1#1 := by
  have ha : (0#32).sle x = true := by
    rw [BitVec.sle]; simp only [BitVec.toInt_zero, decide_eq_true_eq]; exact h0
  have hb : x.sle 49999#32 = true := by
    rw [BitVec.sle]
    have : (49999#32 : BitVec 32).toInt = 49999 := by decide
    rw [this]; simp only [decide_eq_true_eq]; omega
  show IntOp.andi (BitVec.ofBool ((0#32).sle x)) (BitVec.ofBool (x.sle 49999#32)) = 1#1
  rw [ha, hb]
  rfl

/-- A conjunction, from 1, of bits that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_ones f hf l

/-! ## Each layer read at an index -/

/-- The flattened row `r` of the edge array reads the array at `(r, e)`. -/
theorem edgeRow_apply (off : Fin 2 → Nat) (h : S2x640000.Slices off S1x640000) (E : IVec S2x640000 32) (r : Fin 2)
    (h0 : off 0 = r.val) (h1 : off 1 = 0) (e : Fin 640000) : edgeRow off h E (ix1 e) = E (ix2 r e) := by
  unfold edgeRow
  rw [shapeCast_1a_a_apply]
  exact extractStridedSlice_apply off E h _ _ fun a => match a with
    | ⟨0, _⟩ => by show r.val = off 0 + 0; omega
    | ⟨1, _⟩ => by show e.val = off 1 + e.val; omega

/-- The flattened row `r` of the score table reads the table at `(r, n)`. -/
theorem scoreRow_apply {F : FTy → Type} [FloatOps F] (off : Fin 2 → Nat) (h : S2x50000.Slices off S1x50000)
    (Yt : FVec F S2x50000 .f32) (r : Fin 2) (h0 : off 0 = r.val) (h1 : off 1 = 0) (n : Fin 50000) :
    scoreRow off h Yt (ix1 n) = Yt (ix2 r n) := by
  unfold scoreRow
  rw [shapeCast_1a_a_apply]
  exact extractStridedSlice_apply off Yt h _ _ fun a => match a with
    | ⟨0, _⟩ => by show r.val = off 0 + 0; omega
    | ⟨1, _⟩ => by show n.val = off 1 + n.val; omega

/-- A vector laid out as a 640000 × 1 column reads, at `(e, u)`, the vector at `e`. -/
theorem col_apply {α : Type} (v : S640000.Idx → α) (e : Fin 640000) (u : Fin 1) :
    broadcastInDim S640000x1 ![0] bcast_S640000_S640000x1_0 v (ix2 e u) = v (ix1 e) :=
  broadcastInDim_apply _ _ v _ _ fun a => match a with
    | ⟨0, _⟩ => by
      show e.val = if (640000 : Nat) = 1 then 0 else e.val
      rw [if_neg (by decide)]

/-- The wrapped column at `(e, u)`: the wrap of entry `e`. -/
theorem wrapCol_apply (idx : IVec S640000 32) (e : Fin 640000) (u : Fin 1) :
    wrapCol idx (ix2 e u) = Scalar.select (IntOp.cmpi .slt (idx (ix1 e)) 0#32) (IntOp.addi (idx (ix1 e)) 50000#32)
      (idx (ix1 e)) := by
  unfold wrapCol
  rw [col_apply]
  rfl

/-- The wrapped column of entries that are all non-negative is the entries themselves. -/
theorem wrapCol_of_nonneg (idx : IVec S640000 32) (h : ∀ e, 0 ≤ (idx e).toInt) (e : Fin 640000) (u : Fin 1) :
    wrapCol idx (ix2 e u) = idx (ix1 e) := by
  rw [wrapCol_apply, wrap_word _ (h _)]

/-- The validity column at an index: the two bounds tests of the entry there. -/
theorem inBounds_apply (w : IVec S640000x1 32) (j : S640000x1.Idx) :
    inBounds w j = IntOp.andi (IntOp.cmpi .sge (w j) 0#32) (IntOp.cmpi .sle (w j) 49999#32) := rfl

/-- A column whose entries are all between 0 and 49999 has every validity bit set. -/
theorem okBits_eq_one (w : IVec S640000x1 32) (h : ∀ j, 0 ≤ (w j).toInt ∧ (w j).toInt < 50000) (e : S640000.Idx) :
    okBits w e = 1#1 := by
  unfold okBits Host.reduce
  exact foldl_andi_ones _ (fun n => by rw [inBounds_apply]; exact bounds_word _ (h _).1 (h _).2) _

/-- The gather at edge `e`: the score vector at the column's entry `(e, 0)`, read signed and clamped into the table. -/
theorem gather_apply {α : Type} (row : S50000.Idx → α) (w : IVec S640000x1 32) (e : Fin 640000) :
    Host.gather gather_S50000_S640000x1_S640000_n_0_n_n_0_1_1 row w (ix1 e)
      = row (ix1 ⟨min (w (ix2 e 0)).toInt.toNat 49999, by omega⟩) := by
  have e1 : (Shape.Idx.ofFin e : S640000.Idx) = ix1 e := by
    funext a; match a with | ⟨0, _⟩ => rfl
  have e2 : (StableHlo.Predicate.ixP e : S640000x1.Idx) = ix2 e 0 := by
    funext a; match a with | ⟨0, _⟩ => rfl | ⟨1, _⟩ => rfl
  rw [← e1]
  refine (StableHlo.Predicate.gather_take gather_S50000_S640000x1_S640000_n_0_n_n_0_1_1 rfl rfl rfl rfl row w e
    (by decide)).trans (congrArg row ?_)
  funext a
  match a with
  | ⟨0, _⟩ =>
    refine Fin.ext ?_
    show min (w (StableHlo.Predicate.ixP e)).toInt.toNat (50000 - 1) = min (w (ix2 e 0)).toInt.toNat 49999
    rw [e2]

/-! ## The take of a row at in-range entries, and the whole -/

/-- With every entry of the index vector a node number, the take at edge `e` is the score at that node. -/
theorem takeRow_apply (row : FVec Ideal S50000 .f32) (idx : IVec S640000 32)
    (h : ∀ e, 0 ≤ (idx e).toInt ∧ (idx e).toInt < 50000) (e : Fin 640000) (n : Fin 50000)
    (hn : (n.val : Int) = (idx (ix1 e)).toInt) : takeRow row idx (ix1 e) = row (ix1 n) := by
  have hw : ∀ j : S640000x1.Idx, 0 ≤ (wrapCol idx j).toInt ∧ (wrapCol idx j).toInt < 50000 := fun j => by
    obtain ⟨a, b, rfl⟩ : ∃ (a : Fin 640000) (b : Fin 1), j = ix2 a b := ⟨j 0, j 1, eq_ix2 j⟩
    rw [wrapCol_of_nonneg idx (fun e => (h e).1) a b]
    exact h _
  unfold takeRow
  rw [select_apply, okBits_eq_one _ hw, select_one, gather_apply]
  refine congrArg row (congrArg ix1 (Fin.ext ?_))
  show min (wrapCol idx (ix2 e 0)).toInt.toNat 49999 = n.val
  rw [wrapCol_of_nonneg idx (fun e => (h e).1)]
  have := n.isLt
  omega

/-- On an edge array whose entries all name nodes, the operations after the region give edge `e` the sum of the
    table's row-0 score at its source and row-1 score at its destination. -/
theorem tail_eq (Yt : FVec Ideal Cert.Spec.SY .f32) (E : IVec Cert.Spec.SE 32) (hE : Cert.Spec.InRange E) :
    tailFn (F := Ideal) Yt E
      = fun i => Yt (ix2 0 (Cert.Spec.node E 0 (i 0))) + Yt (ix2 1 (Cert.Spec.node E 1 (i 0))) := by
  funext i
  obtain ⟨e, u, rfl⟩ : ∃ (e : Fin 640000) (u : Fin 1), i = ix2 e u := ⟨i 0, i 1, eq_ix2 i⟩
  show tailFn (F := Ideal) Yt E (ix2 e u)
    = Yt (ix2 0 (Cert.Spec.node E 0 e)) + Yt (ix2 1 (Cert.Spec.node E 1 e))
  have hrow : ∀ (r : Fin 2) (off : Fin 2 → Nat) (hs : S2x640000.Slices off S1x640000) (_ : off 0 = r.val) (_ : off 1 = 0)
      (a : S640000.Idx), 0 ≤ (edgeRow off hs E a).toInt ∧ (edgeRow off hs E a).toInt < 50000 := by
    intro r off hs h0 h1 a
    obtain ⟨a', rfl⟩ : ∃ a' : Fin 640000, a = ix1 a' := ⟨a 0, eq_ix1 a⟩
    rw [edgeRow_apply off hs E r h0 h1 a']
    exact hE _
  unfold tailFn
  rw [addf_apply, col_apply, col_apply,
    takeRow_apply _ _ (hrow 0 ![0, 0] slices_S2x640000_S1x640000_0_0 rfl rfl) e (Cert.Spec.node E 0 e)
      (by rw [edgeRow_apply ![0, 0] _ E 0 rfl rfl]; exact (Cert.Spec.node_val hE 0 e).1),
    takeRow_apply _ _ (hrow 1 ![1, 0] slices_S2x640000_S1x640000_1_0 rfl rfl) e (Cert.Spec.node E 1 e)
      (by rw [edgeRow_apply ![1, 0] _ E 1 rfl rfl]; exact (Cert.Spec.node_val hE 1 e).1),
    scoreRow_apply ![0, 0] _ Yt 0 rfl rfl, scoreRow_apply ![1, 0] _ Yt 1 rfl rfl]

end Cert.KernelIdeal.Tail

end
-- ==== Proof.Weights.lean ====
/-
  The stacked weights at an index. The kernel program stacks the two weight rows, each 1 × 128, into one
  2 × 128 array along axis 0. Row 0 of the stack falls in the first piece and row 1 in the second, at the
  second piece's row 0; so entry `(p, k)` of the stack is entry `k` of weight row `p`.
-/
import proofs.«420680_j69681549410500_3_alg».proof.Proof.Gen.KernelIdeal
import proofs.«420680_j69681549410500_3_alg».proof.Proof.Spec
import Idealize.ShloMosaic.Lib.Pipeline.Value
import Idealize.ShloMosaic.Lib.ValueIdx

noncomputable section

namespace Cert.KernelIdeal.Weights

open Idealize.ShloMosaic Idealize.ShloMosaic.ValueIdx Cert.KernelIdeal Cert.KernelIdeal.Facts₀

/-- Entry `(p, k)` of the two weight rows stacked along axis 0 is entry `k` of row `p`. -/
theorem stacked_apply (W1 W2 : FVec Ideal S1x128 .f32) (p : Fin 2) (k : Fin 128) :
    concatenate S2x128 0 [⟨S1x128, W1⟩, ⟨S1x128, W2⟩] concatenates_S1x128_S1x128_S2x128_d0 (ValueIdx.ix2 p k)
      = Cert.Spec.wrow W1 W2 p k := by
  match p with
  | ⟨0, hp⟩ =>
    unfold Cert.Spec.wrow
    rw [if_pos (show (⟨0, hp⟩ : Fin 2).val = 0 from rfl)]
    exact concatenate_pair_apply_left (t := S2x128) (s₁ := S1x128) (s₂ := S1x128) 0 W1 W2
      concatenates_S1x128_S1x128_S2x128_d0 (ix2 ⟨0, hp⟩ k) rfl (ix2 0 k)
      (fun b => match b with
        | ⟨0, _⟩ => rfl
        | ⟨1, _⟩ => rfl)
  | ⟨1, hp⟩ =>
    unfold Cert.Spec.wrow
    rw [if_neg (show ¬(⟨1, hp⟩ : Fin 2).val = 0 from Nat.one_ne_zero)]
    exact concatenate_pair_apply_right (t := S2x128) (s₁ := S1x128) (s₂ := S1x128) 0 W1 W2
      concatenates_S1x128_S1x128_S2x128_d0 (ix2 ⟨1, hp⟩ k) rfl rfl (ix2 0 k)
      (fun b hb => match b, hb with
        | ⟨0, _⟩, hb => absurd rfl hb
        | ⟨1, _⟩, _ => rfl)
      rfl

end Cert.KernelIdeal.Weights

end
-- ==== Proof.ScoresIdeal.lean ====
/-
  The idealized kernel's result. After the pallas_call the node-score table holds `G[p, n] = Σ_k Wcat[p,k] · X[n,k]`
  (the run module), where `Wcat` is the two weight rows stacked by the host concatenate before the call, so `G` is the
  specification's `nodeScores`. The lines after the call take `G[0, src e]` and `G[1, dst e]` for every edge and add them
  (the tail module, under the index range), which is the specification's `edgeScores`.
-/
import proofs.«420680_j69681549410500_3_alg».proof.Proof.RunIdeal
import proofs.«420680_j69681549410500_3_alg».proof.Proof.Tail
import proofs.«420680_j69681549410500_3_alg».proof.Proof.Weights
import proofs.«420680_j69681549410500_3_alg».proof.Proof.Spec
import Idealize.ShloMosaic.Lib.StableHlo.Run

set_option maxRecDepth 16384

noncomputable section

namespace Cert.KernelIdeal.Scores

open Cert.KernelIdeal Cert.KernelIdeal.Gen Cert.KernelIdeal.Run

open Idealize.ShloMosaic Idealize.ShloMosaic.ValueIdx Idealize.ShloMosaic.StableHlo
open Idealize.ShloMosaic.TcCoe
open Idealize.SL Idealize.SL.Sem
open Idealize.ShloMosaic.Pipeline (Dat Cfg Window)

variable (m : (ℓ : Loc nD τ sig) → Buf (Elt Ideal) ℓ) (ρ : Dev nD → PrngReg)

/-- The argument arrays at their literal types. -/
abbrev argX (c : Dev nD) : FVec Ideal Cert.Spec.SX .f32 := m ((c.tc : Thread nD τ).loc main_arg0)
abbrev argE (c : Dev nD) : IVec Cert.Spec.SE 32 := m ((c.tc : Thread nD τ).loc main_arg1)
abbrev argW1 (c : Dev nD) : FVec Ideal Cert.Spec.SW .f32 := m ((c.tc : Thread nD τ).loc main_arg2)
abbrev argW2 (c : Dev nD) : FVec Ideal Cert.Spec.SW .f32 := m ((c.tc : Thread nD τ).loc main_arg3)

/-- The region finds the two weight rows stacked. -/
theorem warr_eq (c : Dev nD) :
    warr m c = concatenate S2x128 0 [⟨S1x128, argW1 m c⟩, ⟨S1x128, argW2 m c⟩] Facts₀.concatenates_S1x128_S1x128_S2x128_d0 := by
  show StableHlo.after hostOps0 (fun b => m (c, b)) (Proc.devRef .tc main_call0_v0) = _
  after_results
  rfl

/-- The table the region leaves is the specification's node scores of the arguments. -/
theorem G_eq (c : Dev nD) : Gfun m c = Cert.Spec.nodeScores (argX m c) (argW1 m c) (argW2 m c) := by
  funext i
  unfold Gfun Cert.Spec.nodeScores
  refine Finset.sum_congr rfl fun k _ => ?_
  refine congrArg₂ (fun a b : EReal => a * b) ?_ ?_
  · rw [warr_eq]
    exact Weights.stacked_apply (argW1 m c) (argW2 m c) (i 0) k
  · exact congrFun (V_main_arg0 m c) _

/-- The result buffer after the lines that follow the region: the edge scores, when every edge endpoint is a node. -/
theorem result_eq (c : Dev nD) (hE : Cert.Spec.InRange (argE m c)) :
    Pipeline.afterTail₀ cfgs (dats m) 0 (V0 m) [hostOps1] c main_v0
      = Cert.Spec.edgeScores (argX m c) (argE m c) (argW1 m c) (argW2 m c) := by
  have hY : Pipeline.withArrays spec0 c (V0 m c) (fun w => (dats m 0 c).arrAt w cfg0.N) (Proc.devRef .tc main_call0_v1) = G m c :=
    (Pipeline.withArrays_arr spec0 launch0.win.arr_inj c _ _ (2 : Fin 3)).trans (final_table m c)
  have hI : Pipeline.withArrays spec0 c (V0 m c) (fun w => (dats m 0 c).arrAt w cfg0.N) (Proc.devRef .tc main_arg1) = argE m c :=
    (Pipeline.withArrays_of_ne spec0 c (V0 m c) _ main_arg1 (by decide)).trans (V_main_arg1 m c)
  unfold Pipeline.afterTail₀
  show StableHlo.after hostOps1 _ (Proc.devRef .tc main_v0) = _
  rw [Tail.tail_after, hY, hI, Tail.tail_eq _ _ hE]
  funext i
  show Gfun m c _ + Gfun m c _ = _
  rw [G_eq]
  rfl

/-- The idealized kernel's run: it terminates without a fault, the result holds the edge scores, the arguments are unchanged. -/
theorem kernel_run (hE : ∀ c : Dev nD, Cert.Spec.InRange (argE m c)) :
    θ_run defs (onTc (τ := τ) (main (F := Ideal))) ⟨m, fun _ => 0, ρ⟩ (fun r => ∀ c : Dev nD,
      r.2.mem ((c.tc : Thread nD τ).loc main_v0) = Cert.Spec.edgeScores (argX m c) (argE m c) (argW1 m c) (argW2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v0 (Pipeline.mem_restRefs_of main_v0 (by decide) (by decide))).trans (result_eq m c (hE c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Scores

end
-- ==== Proof.RefScores.lean ====
/-
  The reference's result is the specification.

  The reference takes each endpoint row of the edge array, wraps a negative entry by adding 50000, gathers
  the rows of the feature table at those entries (the gather reads an entry signed and clamps it into
  [0, 49999]), contracts each gathered row with its weight row, and adds the two results. On an edge
  array whose entries are node numbers the wrap is not taken and the clamp changes nothing, so the row
  gathered for edge `e` from endpoint row `r` is the feature row of `node E r e`; the contraction is the
  node score with the factors in the other order.
-/
import proofs.«420680_j69681549410500_3_alg».proof.Proof.Gen.ReferenceIdeal.Read
import proofs.«420680_j69681549410500_3_alg».proof.Proof.Spec

noncomputable section

namespace Cert.RefScores

open scoped BigOperators
open Idealize.ShloMosaic Idealize.ShloMosaic.ValueIdx Cert.ReferenceIdeal Cert.ReferenceIdeal.Gen
  Cert.ReferenceIdeal.Read Cert.Spec

/-! ## The index word -/

/-- A select whose condition is not 1 is its second branch. -/
theorem select_of_ne {α : Type} {c : BitVec 1} (hc : ¬c = 1#1) (a b : α) : Scalar.select c a b = b := by
  unfold Scalar.select
  exact if_neg hc

/-- A nonnegative word is not wrapped: "if w < 0 then a else w" is `w`. -/
theorem wrap_id {w : BitVec 32} (h0 : 0 ≤ w.toInt) (a : BitVec 32) :
    Scalar.select (IntOp.cmpi .slt w 0#32) a w = w :=
  select_of_ne (fun h => by
    have h1 := IntOp.cmpi_slt.1 h
    rw [show (0#32).toInt = 0 by decide] at h1
    omega) _ _

/-- The start index the first gather reads for edge `j 0`: the source row's entry. -/
theorem src_word (E : IVec SE 32) (hE : InRange E) (j : S640000x1.Idx) :
    val_main_v9 (F := Ideal) E j = E (ix2 0 (j 0)) := by
  rw [val_main_v9_apply, val_main_v8_apply, val_main_v5_apply, val_main_v4_apply, val_main_c_apply,
    val_main_v1_apply, val_main_v0_apply]
  have e : idx_main_v0 (idx_main_v1 (idx_main_v9 j)) = ix2 0 (j 0) := by
    funext a
    refine Fin.ext ?_
    match a with
    | ⟨0, _⟩ => rfl
    | ⟨1, _⟩ =>
      show (j 0).val % 640000 = (j 0).val
      exact Nat.mod_eq_of_lt (j 0).isLt
  rw [e]
  exact wrap_id (hE _).1 _

/-- The start index the second gather reads for edge `j 0`: the destination row's entry. -/
theorem dst_word (E : IVec SE 32) (hE : InRange E) (j : S640000x1.Idx) :
    val_main_v16 (F := Ideal) E j = E (ix2 1 (j 0)) := by
  rw [val_main_v16_apply, val_main_v15_apply, val_main_v12_apply, val_main_v11_apply, val_main_c_1_apply,
    val_main_v3_apply, val_main_v2_apply]
  have e : idx_main_v2 (idx_main_v3 (idx_main_v16 j)) = ix2 1 (j 0) := by
    funext a
    refine Fin.ext ?_
    match a with
    | ⟨0, _⟩ => rfl
    | ⟨1, _⟩ =>
      show (j 0).val % 640000 = (j 0).val
      exact Nat.mod_eq_of_lt (j 0).isLt
  rw [e]
  exact wrap_id (hE _).1 _

/-- Reading an entry that is a node number signed and clamping it into [0, 49999] gives the node. -/
theorem clamp_node (E : IVec SE 32) (hE : InRange E) (r : Fin 2) (e : Fin 640000) :
    min (E (ix2 r e)).toInt.toNat 49999 = (node E r e).val := by
  obtain ⟨h0, h1⟩ := hE (ix2 r e)
  obtain ⟨hn, _⟩ := node_val hE r e
  omega

/-! ## The row gather at an index -/

/-- The row gather at `(e, k)`: the table at row "start index `e`, read signed and clamped into [0, 49999]",
    column `k`. Axis 0 of the table is the collapsed, start-indexed one; axis 1 is the offset axis, whole. -/
theorem gather_row {α : Type} {w : Nat} (x : S50000x128.Idx → α) (idx : IVec S640000x1 w) (j : S640000x128.Idx) :
    Host.gather gather_S50000x128_S640000x1_S640000x128_1_0_n_n_0_1_1128 x idx j
      = x (ix2 (⟨min (idx (ix2 (j 0) 0)).toInt.toNat 49999, by omega⟩ : Fin 50000) (j 1)) := by
  unfold Host.gather
  congr 1
  funext a
  refine Fin.ext ?_
  match a with
  | ⟨0, _⟩ =>
    show gather_S50000x128_S640000x1_S640000x128_1_0_n_n_0_1_1128.start j idx 0
        + gather_S50000x128_S640000x1_S640000x128_1_0_n_n_0_1_1128.batchCoord j 0
        + gather_S50000x128_S640000x1_S640000x128_1_0_n_n_0_1_1128.offCoord j 0
      = min (idx (ix2 (j 0) 0)).toInt.toNat 49999
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin S50000x128.rank) ∈ gather_S50000x128_S640000x1_S640000x128_1_0_n_n_0_1_1128.startIndexMap
      from List.mem_singleton.mpr rfl)]
    have hsi : gather_S50000x128_S640000x1_S640000x128_1_0_n_n_0_1_1128.siIdx j
        ⟨List.idxOf (0 : Fin S50000x128.rank) gather_S50000x128_S640000x1_S640000x128_1_0_n_n_0_1_1128.startIndexMap,
          List.idxOf_lt_length_iff.2 (List.mem_singleton.mpr rfl)⟩ = ix2 (j 0) 0 := by
      funext b
      refine Fin.ext ?_
      match b with
      | ⟨0, _⟩ => rfl
      | ⟨1, _⟩ => rfl
    rw [hsi]
    rfl
  | ⟨1, _⟩ =>
    show gather_S50000x128_S640000x1_S640000x128_1_0_n_n_0_1_1128.start j idx 1
        + gather_S50000x128_S640000x1_S640000x128_1_0_n_n_0_1_1128.batchCoord j 1
        + gather_S50000x128_S640000x1_S640000x128_1_0_n_n_0_1_1128.offCoord j 1
      = (j 1).val
    rw [GatherDims.batchCoord_eq_zero _ _ _ List.not_mem_nil]
    unfold GatherDims.start
    rw [dif_neg (show ¬(1 : Fin S50000x128.rank) ∈ gather_S50000x128_S640000x1_S640000x128_1_0_n_n_0_1_1128.startIndexMap by decide)]
    unfold GatherDims.offCoord
    rw [dif_pos (show (1 : Fin S50000x128.rank) ∈ gather_S50000x128_S640000x1_S640000x128_1_0_n_n_0_1_1128.sKept by decide)]
    rw [Nat.add_zero, Nat.zero_add]
    rfl

/-! ## The gathered rows -/

/-- The first gather at `(e, k)` is the source node's feature `k`. -/
theorem src_row (X : FVec Ideal SX .f32) (E : IVec SE 32) (hE : InRange E) (i : SO.Idx) (k : Fin 128) :
    val_main_v10 (F := Ideal) X E (lidx_main_v18 i k) = X (ix2 (node E 0 (i 0)) k) := by
  unfold val_main_v10
  rw [gather_row]
  congr 1
  funext a
  match a with
  | ⟨0, _⟩ =>
    refine Fin.ext ?_
    show min (val_main_v9 (F := Ideal) E (ix2 (i 0) 0)).toInt.toNat 49999 = (node E 0 (i 0)).val
    rw [src_word E hE]
    exact clamp_node E hE 0 (i 0)
  | ⟨1, _⟩ => rfl

/-- The second gather at `(e, k)` is the destination node's feature `k`. -/
theorem dst_row (X : FVec Ideal SX .f32) (E : IVec SE 32) (hE : InRange E) (i : SO.Idx) (k : Fin 128) :
    val_main_v17 (F := Ideal) X E (lidx_main_v19 i k) = X (ix2 (node E 1 (i 0)) k) := by
  unfold val_main_v17
  rw [gather_row]
  congr 1
  funext a
  match a with
  | ⟨0, _⟩ =>
    refine Fin.ext ?_
    show min (val_main_v16 (F := Ideal) E (ix2 (i 0) 0)).toInt.toNat 49999 = (node E 1 (i 0)).val
    rw [dst_word E hE]
    exact clamp_node E hE 1 (i 0)
  | ⟨1, _⟩ => rfl

/-! ## The contraction -/

/-- The weight index of term `k`: the one row, column `k`. -/
theorem ridx18_eq (i : SO.Idx) (k : Fin 128) : ridx_main_v18 i k = ix2 0 k := by
  funext a
  refine Fin.ext ?_
  match a with
  | ⟨0, _⟩ =>
    have h : (i 1).val < 1 := (i 1).isLt
    show (i 1).val = 0
    omega
  | ⟨1, _⟩ => rfl

theorem ridx19_eq (i : SO.Idx) (k : Fin 128) : ridx_main_v19 i k = ix2 0 k := ridx18_eq i k

theorem wrow_zero (W1 W2 : FVec Ideal SW .f32) (k : Fin 128) : wrow W1 W2 0 k = W1 (ix2 0 k) := if_pos rfl
theorem wrow_one (W1 W2 : FVec Ideal SW .f32) (k : Fin 128) : wrow W1 W2 1 k = W2 (ix2 0 k) := if_neg (by decide)

/-- The reference computes the edge scores. -/
theorem ref_eq (X : FVec Ideal Cert.Spec.SX .f32) (E : IVec Cert.Spec.SE 32) (W1 W2 : FVec Ideal Cert.Spec.SW .f32)
    (hE : Cert.Spec.InRange E) :
    Cert.ReferenceIdeal.Read.val_main_v20 (F := Ideal) X E W1 W2 = Cert.Spec.edgeScores X E W1 W2 := by
  funext i
  rw [val_main_v20_apply, val_main_v18_apply, val_main_v19_apply]
  show (∑ k : Fin 128, val_main_v10 (F := Ideal) X E (lidx_main_v18 i k) * W1 (ridx_main_v18 i k))
      + (∑ k : Fin 128, val_main_v17 (F := Ideal) X E (lidx_main_v19 i k) * W2 (ridx_main_v19 i k))
    = (∑ k : Fin 128, wrow W1 W2 0 k * X (ix2 (node E 0 (i 0)) k))
      + (∑ k : Fin 128, wrow W1 W2 1 k * X (ix2 (node E 1 (i 0)) k))
  congr 1
  · refine Finset.sum_congr rfl fun k _ => ?_
    rw [src_row X E hE i k, ridx18_eq, wrow_zero, mul_comm]
  · refine Finset.sum_congr rfl fun k _ => ?_
    rw [dst_row X E hE i k, ridx19_eq, wrow_one, mul_comm]

end Cert.RefScores

end
-- ==== Proof.PreRange.lean ====
/-
  The printed precondition gives the index range. The precondition is a conjunction of five scalar
  tests; its last two are "every entry of the edge array is ≥ 0" and "every entry is < 50000", each a
  reduction by `and` over all entries of a signed word comparison against a broadcast constant. From the
  conjunction being 1 each reduction is 1, so each comparison is 1 at every entry, which is the bound
  on the entry read as a signed integer.
-/
import proofs.«420680_j69681549410500_3_alg».proof.Proof.Gen.Pre_finite_inputs
import proofs.«420680_j69681549410500_3_alg».proof.Proof.Spec
import Idealize.ShloMosaic.Lib.ReduceAll

namespace Cert.PreRange

open Idealize.ShloMosaic Idealize.ShloMosaic.ValueIdx Cert.Pre_finite_inputs Cert.Pre_finite_inputs.Gen

/-- The scalar shape has one index. -/
instance : Subsingleton S_.Idx := ⟨fun a b => funext fun d => d.elim0⟩

/-- The precondition holding says every entry of the edge array is a node number. -/
theorem inRange_of_pre {F : FTy → Type} [FloatOps F] (X : FVec F Cert.Pre_finite_inputs.S50000x128 .f32)
    (E : IVec Cert.Pre_finite_inputs.S2x640000 32) (W1 W2 : FVec F Cert.Pre_finite_inputs.S1x128 .f32)
    (h : Cert.Pre_finite_inputs.fn (F := F) X E W1 W2 = fun _ => 1#1) : Cert.Spec.InRange E := by
  have h0 := congrFun h ix0
  dsimp only [fn, fn_part1] at h0
  -- the conjunction: (… ∧ all (E ≥ 0)) ∧ all (E < 50000)
  obtain ⟨h17, h20⟩ := IntOp.andi_eq_one.1 h0
  obtain ⟨_, h16⟩ := IntOp.andi_eq_one.1 h17
  intro i
  have hge := Host.reduce_andi_all _ _ _ _ ix0 h16 i
  have hlt := Host.reduce_andi_all _ _ _ _ ix0 h20 i
  have hge' : (0#32).toInt ≤ (E i).toInt := IntOp.cmpi_sge.1 hge
  have hlt' : (E i).toInt < (50000#32).toInt := IntOp.cmpi_slt.1 hlt
  have e0 : (0#32).toInt = 0 := by decide
  have e1 : (50000#32).toInt = 50000 := by decide
  rw [e0] at hge'
  rw [e1] at hlt'
  exact ⟨hge', hlt'⟩

end Cert.PreRange
-- ==== Proof.lean ====
/-
  The certificate: an edge decoder `out[e] = W1 · X[src e] + W2 · X[dst e]` over 50000 nodes of 128 features and
  640000 edges, as a kernel that first scores every node under both weight rows in one pallas_call
  (`Yt[p, n] = Σ_k Wp[0,k] · X[n,k]`, a 2 × 50000 table written in blocks of 8192 columns, the last one cut at the
  table's end) and then takes `Yt[0, src e] + Yt[1, dst e]` on the host, against the reference that gathers the
  endpoint rows of `X` and contracts each with its weight row. Over the extended reals both are
  `Σ_k W1[0,k] · X[src e, k] + Σ_k W2[0,k] · X[dst e, k]`: the only law used is commutativity of the product under
  the sum, so the finiteness of the inputs is not used. What IS used is that every entry of the edge array is a
  node number, `0 ≤ entry < 50000`: outside that range the kernel's take fills with a not-a-number word where the
  reference's gather clamps the row index.

  The five conjuncts: the word-level kernel's frame with the result's window forgotten (FrameBits); the idealized
  kernel's frame and value from one run with the table named (RunIdeal, ScoresIdeal); the reference's frame and
  value from its generated run, read at an index (RefScores); the idealization rewrote nothing, so `preserves` is
  `True`.
-/
import proofs.«420680_j69681549410500_3_alg».proof.Defs
import proofs.«420680_j69681549410500_3_alg».proof.Proof.Gen.Kernel
import proofs.«420680_j69681549410500_3_alg».proof.Proof.Gen.Kernel.Skeleton
import proofs.«420680_j69681549410500_3_alg».proof.Proof.Gen.Kernel.Launch
import proofs.«420680_j69681549410500_3_alg».proof.Proof.Gen.Kernel.Points
import proofs.«420680_j69681549410500_3_alg».proof.Proof.Gen.Kernel.Frame
import proofs.«420680_j69681549410500_3_alg».proof.Proof.Gen.KernelIdeal
import proofs.«420680_j69681549410500_3_alg».proof.Proof.Gen.KernelIdeal.Skeleton
import proofs.«420680_j69681549410500_3_alg».proof.Proof.Gen.KernelIdeal.Launch
import proofs.«420680_j69681549410500_3_alg».proof.Proof.Gen.KernelIdeal.Points
import proofs.«420680_j69681549410500_3_alg».proof.Proof.Gen.KernelIdeal.Frame
import proofs.«420680_j69681549410500_3_alg».proof.Proof.Gen.ReferenceIdeal
import proofs.«420680_j69681549410500_3_alg».proof.Proof.Gen.ReferenceIdeal.Run
import proofs.«420680_j69681549410500_3_alg».proof.Proof.Gen.ReferenceIdeal.Read
import proofs.«420680_j69681549410500_3_alg».proof.Proof.Gen.Pre_finite_inputs
import proofs.«420680_j69681549410500_3_alg».proof.Proof.FrameBits
import proofs.«420680_j69681549410500_3_alg».proof.Proof.ScoresIdeal
import proofs.«420680_j69681549410500_3_alg».proof.Proof.RefScores
import proofs.«420680_j69681549410500_3_alg».proof.Proof.PreRange
import Idealize.ShloMosaic.Adequacy
import Idealize.ShloMosaic.Init

noncomputable section

namespace Cert.Proof

open Idealize.ShloMosaic Idealize.SL.Sem

/-- The word-level kernel runs to the end, faults nowhere and leaves its arguments unchanged. -/
theorem frame_k : Cert.frame_Kernel := fun m ρ _ => Cert.Kernel.FrameRun.frame (F := Bits) m ρ

/-- So does the idealized kernel: its run with the node-score table named, read at the arguments. -/
theorem frame_ki : Cert.frame_KernelIdeal := fun m ρ _ =>
  Cert.KernelIdeal.Gen.frame_of m ρ (Cert.KernelIdeal.Run.dats m) (Cert.KernelIdeal.Run.A_eq m) (Cert.KernelIdeal.Run.run_main m ρ)

/-- And the reference: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals the two programs, run from memories that agree on the arguments, end with the same
    result, the edge scores of the arguments: the precondition gives the index range, the kernel's run and the
    reference's run each end at the specification's function. -/
theorem algebraic : Cert.algebraic_KernelIdeal_ReferenceIdeal := by
  intro m ρ m' ρ' hpre hagree
  have hE : ∀ c : Dev Cert.KernelIdeal.nD, Cert.Spec.InRange (Cert.KernelIdeal.Scores.argE m c) := fun c =>
    Cert.PreRange.inRange_of_pre (F := Ideal) _ _ _ _ (hpre c)
  refine ⟨fun c => Cert.Spec.edgeScores (Cert.KernelIdeal.Scores.argX m c) (Cert.KernelIdeal.Scores.argE m c)
      (Cert.KernelIdeal.Scores.argW1 m c) (Cert.KernelIdeal.Scores.argW2 m c),
    Cert.KernelIdeal.Scores.kernel_run m ρ hE, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, (hagree c).1, (hagree c).2.1, (hagree c).2.2.1, (hagree c).2.2.2]
  exact Cert.RefScores.ref_eq _ _ _ _ (hE c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
